-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x10000 : Shape := ⟨2, ![10000, 10000]⟩
abbrev S10000x128 : Shape := ⟨2, ![10000, 128]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S10000x10000 : S_.BroadcastsInDim S10000x10000 (![] : Fin 0 → Fin S10000x10000.rank)
  reducesTo_S10000x10000_S_d0_1 : S10000x10000.ReducesTo [0, 1] S_
  h_S_ : 0 < S_.numel
  bcast_S_S10000x128 : S_.BroadcastsInDim S10000x128 (![] : Fin 0 → Fin S10000x128.rank)
  reducesTo_S10000x128_S_d0_1 : S10000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S1 .f32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg4 : FVec F S128x128 .f32) (main_arg5 : FVec F S128 .f32) (main_arg6 : FVec F S128x1 .f32) (main_arg7 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x1 .f32 := Host.absf main_arg6
  let main_cst_10 : FVec F S_ .f32 := constant S_ .f32 0x7F800000#32
  let main_v30 : FVec F S128x1 .f32 := broadcastInDim S128x1 ![] bcast_S_S128x1 main_cst_10
  let main_v31 : IVec S128x1 1 := cmpf .olt main_v29 main_v30
  let main_c_11 : IVec S_ 1 := constantI S_ 1 1#1
  let main_v32 : IVec S_ 1 := (fun x v => Host.reduce IntOp.andi x v reducesTo_S128x1_S_d0_1 h_S_) main_v31 main_c_11
  let main_v33 : IVec S_ 1 := andi main_v28 main_v32
  fn_part2 (F := F) main_arg7 main_v33

def fn {F : FTy → Type} [FloatOps F] (main_arg0 : FVec F S10000x10000 .f32) (main_arg1 : FVec F S10000x128 .f32) (main_arg2 : FVec F S128x128 .f32) (main_arg3 : FVec F S128 .f32) (main_arg4 : FVec F S128x128 .f32) (main_arg5 : FVec F S128 .f32) (main_arg6 : FVec F S128x1 .f32) (main_arg7 : FVec F S1 .f32) : IVec S_ 1 :=
  let main_v0 : FVec F S10000x10000 .f32 := Host.absf main_arg0
  let main_cst : FVec F S_ .f32 := constant S_ .f32 0x7F800000#32
  let main_v1 : FVec F S10000x10000 .f32 := broadcastInDim S10000x10000 ![] bcast_S_S10000x10000 main_cst
  let main_v2 : IVec S10000x10000 1 := cmpf .olt main_v0 main_v1
  let main_c : IVec S_ 1 := constantI S_ 1 1#1
  let main_v3 : IVec S_ 1 := (fun x v => Host.reduce IntOp.andi x v reducesTo_S10000x10000_S_d0_1 h_S_) main_v2 main_c
  let main_v4 : FVec F S10000x128 .f32 := Host.absf main_arg1
  let main_cst_0 : FVec F S_ .f32 := constant S_ .f32 0x7F800000#32
  let main_v5 : FVec F S10000x128 .f32 := broadcastInDim S10000x128 ![] bcast_S_S10000x128 main_cst_0
  let main_v6 : IVec S10000x128 1 := cmpf .olt main_v4 main_v5
  let main_c_1 : IVec S_ 1 := constantI S_ 1 1#1
  let main_v7 : IVec S_ 1 := (fun x v => Host.reduce IntOp.andi x v reducesTo_S10000x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_v13 main_v16
-- ==== Kernel.lean ====
abbrev S10000x10000 : Shape := ⟨2, ![10000, 10000]⟩
abbrev S10000x128 : Shape := ⟨2, ![10000, 128]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x128 : Shape := ⟨2, ![1, 128]⟩
abbrev S1x1 : Shape := ⟨2, ![1, 1]⟩
abbrev S10000x1 : Shape := ⟨2, ![10000, 1]⟩
abbrev S400x10000 : Shape := ⟨2, ![400, 10000]⟩
abbrev S400x1 : Shape := ⟨2, ![400, 1]⟩
abbrev S400x128 : Shape := ⟨2, ![400, 128]⟩

abbrev nBuf : Space → Nat
  | .hbm => 16
  | .vmem => 22
  | .smem => 0
  | _ => 0

abbrev bufTy : (tb : Table) → Fin (tcTables nBuf tb) → BufTy
  | .hbm, ⟨0, _⟩ => ⟨S10000x10000, .f32⟩
  | .hbm, ⟨1, _⟩ => ⟨S10000x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x1, .f32⟩
  | .hbm, ⟨7, _⟩ => ⟨S1, .f32⟩
  | .hbm, ⟨8, _⟩ => ⟨S1x128, .f32⟩
  | .hbm, ⟨9, _⟩ => ⟨S1x1, .f32⟩
  | .hbm, ⟨10, _⟩ => ⟨S10000x128, .f32⟩
  | .hbm, ⟨11, _⟩ => ⟨S128x1, .f32⟩
  | .hbm, ⟨12, _⟩ => ⟨S1x1, .f32⟩
  | .hbm, ⟨13, _⟩ => ⟨S1x128, .f32⟩
  | .hbm, ⟨14, _⟩ => ⟨S10000x1, .f32⟩
  | .hbm, ⟨15, _⟩ => ⟨S10000x1, .f32⟩
  | .local _ .vmem, ⟨0, _⟩ => ⟨S10000x128, .f32⟩
  | .local _ .vmem, ⟨1, _⟩ => ⟨S128x128, .f32⟩
  | .local _ .vmem, ⟨2, _⟩ => ⟨S128x128, .f32⟩
  | .local _ .vmem, ⟨3, _⟩ => ⟨S1x128, .f32⟩
  | .local _ .vmem, ⟨4, _⟩ => ⟨S128x1, .f32⟩
  | .local _ .vmem, ⟨5, _⟩ => ⟨S1x1, .f32⟩
  | .local _ .vmem, ⟨6, _⟩ => ⟨S10000x128, .f32⟩
  | .local _ .vmem, ⟨7, _⟩ => ⟨S128x1, .f32⟩
  | .local _ .vmem, ⟨8, _⟩ => ⟨S1x1, .f32⟩
  | .local _ .vmem, ⟨9, _⟩ => ⟨S400x10000, .f32⟩
  | .local _ .vmem, ⟨10, _⟩ => ⟨S400x10000, .f32⟩
  | .local _ .vmem, ⟨11, _⟩ => ⟨S10000x128, .f32⟩
  | .local _ .vmem, ⟨12, _⟩ => ⟨S1x128, .f32⟩
  | .local _ .vmem, ⟨13, _⟩ => ⟨S128x1, .f32⟩
  | .local _ .vmem, ⟨14, _⟩ => ⟨S400x1, .f32⟩
  | .local _ .vmem, ⟨15, _⟩ => ⟨S400x1, .f32⟩
  | .local _ .vmem, ⟨16, _⟩ => ⟨S400x10000, .f32⟩
  | .local _ .vmem, ⟨17, _⟩ => ⟨S400x10000, .f32⟩
  | .local _ .vmem, ⟨18, _⟩ => ⟨S10000x1, .f32⟩
  | .local _ .vmem, ⟨19, _⟩ => ⟨S1x1, .f32⟩
  | .local _ .vmem, ⟨20, _⟩ => ⟨S400x1, .f32⟩
  | .local _ .vmem, ⟨21, _⟩ => ⟨S400x1, .f32⟩
  | _, _ => ⟨S10000x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev main_v2_2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem3_1 : DmaSem sig := 21

abbrev nD : Nat := 1
abbrev τ : Topo := Topo.v7x

variable {F : FTy → Type} [FloatOps F]

abbrev grid0 : Pipeline.Grid := .none

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S10000x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S128x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S400x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S400x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  shapeCasts_S128_S1x128 : S128.ShapeCasts S1x128
  shapeCasts_S1_S1x1 : S1.ShapeCasts S1x1
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  inb_S128x1_S128x1_0_0 : ∀ a, (![0, 0] : Fin 2 → Nat) a + S128x1.size a ≤ S128x1.size a
  h_S128x1 : 0 < S128x1.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S400x10000_S400x10000_0_0 : ∀ a, (![0, 0] : Fin 2 → Nat) a + S400x10000.size a ≤ S400x10000.size a
  h_S400x10000 : 0 < S400x10000.numel
  shapeCasts_S10000x128_S10000x128 : S10000x128.ShapeCasts S10000x128
  broadcasts_S1x128_S400x128 : S1x128.Broadcasts S400x128
  shapeCasts_S128x1_S128x1 : S128x1.ShapeCasts S128x1
  inb_S400x1_S400x1_0_0 : ∀ a, (![0, 0] : Fin 2 → Nat) a + S400x1.size a ≤ S400x1.size a
  h_S400x1 : 0 < S400x1.numel
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S1x1_S400x1 : S1x1.Broadcasts S400x1
  dot_S10000x128_S128x128_S10000x128_1_0_0_1_n_n_wf : DotDims.WF S10000x128 S128x128 S10000x128 [1] [0] [0] [1] [] []
  dot_S128x128_S128x1_S128x1_1_0_0_1_n_n_wf : DotDims.WF S128x128 S128x1 S128x1 [1] [0] [0] [1] [] []
  dot_S1x128_S128x1_S1x1_1_0_0_1_n_n_wf : DotDims.WF S1x128 S128x1 S1x1 [1] [0] [0] [1] [] []
  dot_S400x10000_S10000x128_S400x128_1_0_0_1_n_n_wf : DotDims.WF S400x10000 S10000x128 S400x128 [1] [0] [0] [1] [] []
  dot_S400x128_S128x1_S400x1_1_0_0_1_n_n_wf : DotDims.WF S400x128 S128x1 S400x1 [1] [0] [0] [1] [] []
  dot_S400x10000_S10000x1_S400x1_1_0_0_1_n_n_wf : DotDims.WF S400x10000 S10000x1 S400x1 [1] [0] [0] [1] [] []
  hstage0_0 : ∀ j, (stage0_0 j).IsWhole
  hstage0_1 : ∀ j, (stage0_1 j).IsWhole
  hstage0_2 : ∀ j, (stage0_2 j).IsWhole
  hstage0_3 : ∀ j, (stage0_3 j).IsWhole
  hstage0_4 : ∀ j, (stage0_4 j).IsWhole
  hstage0_5 : ∀ j, (stage0_5 j).IsWhole
  hstage0_6 : ∀ j, (stage0_6 j).IsWhole
  hstage0_7 : ∀ j, (stage0_7 j).IsWhole
  hstage0_8 : ∀ j, (stage0_8 j).IsWhole
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S10000x128.size a
  hwx1_1 : ∀ i : grid1.Coords, EltTy.bits .f32 = 32 ∨ (Rect.block (s := S10000x128) S10000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x1.size a ≤ S128x1.size a
  hwx1_3 : ∀ i : grid1.Coords, EltTy.bits .f32 = 32 ∨ (Rect.block (s := S128x1) S128x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S400x1.size a ≤ S10000x1.size a
  hwx1_4 : ∀ i : grid1.Coords, EltTy.bits .f32 = 32 ∨ (Rect.block (s := S10000x1) S400x1.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .f32 = 32 ∨ (Rect.block (s := S10000x10000) S400x10000.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x1.size a ≤ S10000x1.size a
  hwx2_1 : ∀ i : grid2.Coords, EltTy.bits .f32 = 32 ∨ (Rect.block (s := S10000x1) S10000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1.size a ≤ S1x1.size a
  hwx2_2 : ∀ i : grid2.Coords, EltTy.bits .f32 = 32 ∨ (Rect.block (s := S1x1) S1x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S400x1.size a ≤ S10000x1.size a
  hwx2_3 : ∀ i : grid2.Coords, EltTy.bits .f32 = 32 ∨ (Rect.block (s := S10000x1) S400x1.size (cc2_transform_3 i) (hinb2_3 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S128x128_S128x1_S128x1_1_0_0_1_n_n : DotDims S128x128 S128x1 S128x1 where
  lhsContracting := [1]
  rhsContracting := [0]
  lhsNonContracting := [0]
  rhsNonContracting := [1]
  lhsBatch := []
  rhsBatch := []
  wf := dot_S128x128_S128x1_S128x1_1_0_0_1_n_n_wf
def dot_S1x128_S128x1_S1x1_1_0_0_1_n_n : DotDims S1x128 S128x1 S1x1 where
  lhsContracting := [1]
  rhsContracting := [0]
  lhsNonContracting := [0]
  rhsNonContracting := [1]
  lhsBatch := []
  rhsBatch := []
  wf := dot_S1x128_S128x1_S1x1_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x1_S400x1_1_0_0_1_n_n : DotDims S400x128 S128x1 S400x1 where
  lhsContracting := [1]
  rhsContracting := [0]
  lhsNonContracting := [0]
  rhsNonContracting := [1]
  lhsBatch := []
  rhsBatch := []
  wf := dot_S400x128_S128x1_S400x1_1_0_0_1_n_n_wf
def dot_S400x10000_S10000x1_S400x1_1_0_0_1_n_n : DotDims S400x10000 S10000x1 S400x1 where
  lhsContracting := [1]
  rhsContracting := [0]
  lhsNonContracting := [0]
  rhsNonContracting := [1]
  lhsBatch := []
  rhsBatch := []
  wf := dot_S400x10000_S10000x1_S400x1_1_0_0_1_n_n_wf

abbrev win0_0 : Pipeline.Window sig grid0 :=
  Pipeline.Window.whole (Memref.whole main_arg1) false false (stage0_0 0) (sem0_0 0) (Memref.isWhole_whole _) (hstage0_0 0)

abbrev win0_1 : Pipeline.Window sig grid0 :=
  Pipeline.Window.whole (Memref.whole main_arg2) false false (stage0_1 0) (sem0_1 0) (Memref.isWhole_whole _) (hstage0_1 0)

abbrev win0_2 : Pipeline.Window sig grid0 :=
  Pipeline.Window.whole (Memref.whole main_arg4) false false (stage0_2 0) (sem0_2 0) (Memref.isWhole_whole _) (hstage0_2 0)

abbrev win0_3 : Pipeline.Window sig grid0 :=
  Pipeline.Window.whole (Memref.whole main_v0) false false (stage0_3 0) (sem0_3 0) (Memref.isWhole_whole _) (hstage0_3 0)

abbrev win0_4 : Pipeline.Window sig grid0 :=
  Pipeline.Window.whole (Memref.whole main_arg6) false false (stage0_4 0) (sem0_4 0) (Memref.isWhole_whole _) (hstage0_4 0)

abbrev win0_5 : Pipeline.Window sig grid0 :=
  Pipeline.Window.whole (Memref.whole main_v1) false false (stage0_5 0) (sem0_5 0) (Memref.isWhole_whole _) (hstage0_5 0)

abbrev win0_6 : Pipeline.Window sig grid0 :=
  Pipeline.Window.whole (Memref.whole main_v2_0) true false (stage0_6 0) (sem0_6 0) (Memref.isWhole_whole _) (hstage0_6 0)

abbrev win0_7 : Pipeline.Window sig grid0 :=
  Pipeline.Window.whole (Memref.whole main_v2_1) true false (stage0_7 0) (sem0_7 0) (Memref.isWhole_whole _) (hstage0_7 0)

abbrev win0_8 : Pipeline.Window sig grid0 :=
  Pipeline.Window.whole (Memref.whole main_v2_2) true false (stage0_8 0) (sem0_8 0) (Memref.isWhole_whole _) (hstage0_8 0)

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_arg0) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2_0) S10000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2_1) S128x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v4) S400x1.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_arg0) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v4) S10000x1.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v2_2) S1x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v5) S400x1.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S10000x10000 : Shape := ⟨2, ![10000, 10000]⟩
abbrev S10000x128 : Shape := ⟨2, ![10000, 128]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x128 : Shape := ⟨2, ![1, 128]⟩
abbrev S_ : Shape := ⟨0, ![]⟩
abbrev S10000x1 : Shape := ⟨2, ![10000, 1]⟩
abbrev S1x1 : Shape := ⟨2, ![1, 1]⟩

abbrev nBuf : Space → Nat
  | .hbm => 25
  | .vmem => 0
  | .smem => 0
  | _ => 0

abbrev bufTy : (tb : Table) → Fin (tcTables nBuf tb) → BufTy
  | .hbm, ⟨0, _⟩ => ⟨S10000x10000, .f32⟩
  | .hbm, ⟨1, _⟩ => ⟨S10000x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x1, .f32⟩
  | .hbm, ⟨7, _⟩ => ⟨S1, .f32⟩
  | .hbm, ⟨8, _⟩ => ⟨S10000x128, .f32⟩
  | .hbm, ⟨9, _⟩ => ⟨S10000x128, .f32⟩
  | .hbm, ⟨10, _⟩ => ⟨S1x128, .f32⟩
  | .hbm, ⟨11, _⟩ => ⟨S10000x128, .f32⟩
  | .hbm, ⟨12, _⟩ => ⟨S10000x128, .f32⟩
  | .hbm, ⟨13, _⟩ => ⟨S_, .f32⟩
  | .hbm, ⟨14, _⟩ => ⟨S10000x128, .f32⟩
  | .hbm, ⟨15, _⟩ => ⟨S10000x128, .f32⟩
  | .hbm, ⟨16, _⟩ => ⟨S10000x128, .f32⟩
  | .hbm, ⟨17, _⟩ => ⟨S10000x128, .f32⟩
  | .hbm, ⟨18, _⟩ => ⟨S1x128, .f32⟩
  | .hbm, ⟨19, _⟩ => ⟨S10000x128, .f32⟩
  | .hbm, ⟨20, _⟩ => ⟨S10000x128, .f32⟩
  | .hbm, ⟨21, _⟩ => ⟨S10000x1, .f32⟩
  | .hbm, ⟨22, _⟩ => ⟨S1x1, .f32⟩
  | .hbm, ⟨23, _⟩ => ⟨S10000x1, .f32⟩
  | .hbm, ⟨24, _⟩ => ⟨S10000x1, .f32⟩
  | _, _ => ⟨S10000x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_cst : Ref sig .tc := ⟨.hbm, 13, rfl⟩
abbrev main_call0_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  bcast_S1_S1x1_1 : S1.BroadcastsInDim S1x1 (![1] : Fin 1 → Fin S1x1.rank)
  bcast_S1x1_S10000x1_0_1 : S1x1.BroadcastsInDim S10000x1 (![0, 1] : Fin 2 → Fin S10000x1.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []
  dot_S10000x128_S128x1_S10000x1_1_0_0_1_n_n_wf : DotDims.WF S10000x128 S128x1 S10000x1 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x1_S10000x1_1_0_0_1_n_n : DotDims S10000x128 S128x1 S10000x1 where
  lhsContracting := [1]
  rhsContracting := [0]
  lhsNonContracting := [0]
  rhsNonContracting := [1]
  lhsBatch := []
  rhsBatch := []
  wf := dot_S10000x128_S128x1_S10000x1_1_0_0_1_n_n_wf

class Facts : Prop extends Facts₀ where

variable [Facts]
-- ==== Proof.LibPlainMatmul.lean ====
/-
  General lemmas, free of any program.

  * A `tpu.matmul` of an m×k block by a k×n block into the zero accumulator, read at the entry (a, b) at the ideal
    values, is the plain sum over the contracted coordinate c of A(a, c) · B(c, b): no accumulator term, no chunk order.
    Stated for the record `DotDims.plain m k n` and for any record equal to it (a printed record of the same six
    lists differs from it only in its well-formedness proof).
  * The two coordinates of a rank-2 index built from a pair.
  * The coercion of the reals into the extended reals commutes with finite sums and with the maximum of two reals.
-/
import Idealize.ShloMosaic.PureOps.Ideal.Laws
import Idealize.ShloMosaic.Lib.ValueIdx

noncomputable section

namespace PlainMatmul

open Idealize.ShloMosaic Idealize.ShloMosaic.ValueIdx

/-- The entry (a, b) of the product of an m×k by a k×n matrix accumulated into zero is `∑ c, A(a, c) · B(c, b)`. -/
theorem matmul_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (F := Ideal) (DotDims.plain m k n) prec A B (constant ⟨2, ![m, n]⟩ .f32 0x00000000#32) (ix2 a b)
      = ∑ c : Fin k, A (ix2 a c) * B (ix2 c b) := by
  show FloatOps.matmul _ prec A B _ (ix2 a b) = _
  rw [Ideal.matmul_constant_zero_apply, ← Equiv.sum_comp (contrEquiv1 (DotDims.plain m k n) k rfl rfl).symm]
  refine Finset.sum_congr rfl fun c _ => ?_
  -- the contraction index built from c has c on its one axis
  have hc := contrEquiv1_symm_val (DotDims.plain m k n) k rfl rfl c
  -- the left operand is read at (a, c): axis 0 is the output's row, axis 1 the contracted coordinate
  have hl : (DotDims.plain m k n).lhsIdx (ix2 a b) ((contrEquiv1 _ k rfl rfl).symm c) = ix2 a c := by
    funext ax; apply Fin.ext
    match ax with
    | ⟨0, _⟩ => simp [DotDims.lhsIdx, DotDims.plain]; rfl
    | ⟨1, _⟩ => exact ((DotDims.plain m k n).lhsIdx_val_of_single rfl (ix2 a b) _).trans hc
  -- the right operand is read at (c, b)
  have hr : (DotDims.plain m k n).rhsIdx (ix2 a b) ((contrEquiv1 _ k rfl rfl).symm c) = ix2 c b := by
    funext ax; apply Fin.ext
    match ax with
    | ⟨0, _⟩ => exact ((DotDims.plain m k n).rhsIdx_val_of_single rfl (ix2 a b) _).trans hc
    | ⟨1, _⟩ => simp [DotDims.rhsIdx, DotDims.plain]; rfl
  rw [hl, hr]

/-- The same for any record that IS the plain one. -/
theorem matmul_zero_apply_of_eq {m k n : Nat} {φ₁ φ₂ : FTy} (d : DotDims ⟨2, ![m, k]⟩ ⟨2, ![k, n]⟩ ⟨2, ![m, n]⟩)
    (hd : d = DotDims.plain m k n) (prec : Option ContractPrecision)
    (A : FVec Ideal ⟨2, ![m, k]⟩ φ₁) (B : FVec Ideal ⟨2, ![k, n]⟩ φ₂) (a : Fin m) (b : Fin n) :
    matmul (F := Ideal) d prec A B (constant ⟨2, ![m, n]⟩ .f32 0x00000000#32) (ix2 a b)
      = ∑ c : Fin k, A (ix2 a c) * B (ix2 c b) := by
  subst hd; exact matmul_zero_apply prec A B a b

/-- A finite sum of reals, coerced, is the sum of the coerced terms. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The first coordinate of the index built from (a, b) is a. -/
theorem ix2_at0 {n0 n1 : Nat} (a : Fin n0) (b : Fin n1) : (ix2 a b 0 : Fin n0) = a := rfl
/-- The second coordinate of the index built from (a, b) is b. -/
theorem ix2_at1 {n0 n1 : Nat} (a : Fin n0) (b : Fin n1) : (ix2 a b 1 : Fin n1) = b := rfl

/-- The coercion is monotone, so it commutes with the maximum. -/
theorem coe_max (a b : ℝ) : ((max a b : ℝ) : EReal) = max (a : EReal) (b : EReal) :=
  EReal.coe_strictMono.monotone.map_max

end PlainMatmul

end
-- ==== Proof.Spec.lean ====
/-
  The mathematics of the certificate, free of any program.

  A two-layer graph convolution with a dense n×n adjacency A (n = 10000, 128 features, 128 hidden units) and a
  linear head 128 → 1:
      out = (A · relu(A · (x·W1) + b1) · W2 + b2) · Wlin + blin.
  The kernel moves the head in front of the second convolution:
      out = A · v + c,   v = relu(A · (x·W1) + b1) · (W2·Wlin),   c = b2·Wlin + blin.
  Over the reals the two agree because a product distributes over a finite sum and finite sums commute:
      ∑_j (∑_k A_rk ∑_l H_kl W2_lj + b2_j) wl_j  =  ∑_k A_rk ∑_l H_kl (∑_j W2_lj wl_j) + ∑_j b2_j wl_j.
  On the extended reals distributivity fails at the infinities, so the bridge takes every input entry to be a real
  number; every intermediate entry (a finite sum of products, a maximum with 0) is then a real too, and the equation is
  the one over ℝ, coerced.
-/
import Idealize.ShloMosaic.PureOps.Ideal.Laws
import Idealize.ShloMosaic.Lib.ValueIdx
import proofs.«157668_g22909355557424_cont_8to1_1761_2_alg».proof.Proof.LibPlainMatmul

noncomputable section

namespace GcnSpec

open Idealize.ShloMosaic Idealize.ShloMosaic.ValueIdx

abbrev Inn := (⟨2, ![10000, 10000]⟩ : Shape).Idx
abbrev Inh := (⟨2, ![10000, 128]⟩ : Shape).Idx
abbrev Ihh := (⟨2, ![128, 128]⟩ : Shape).Idx
abbrev I1h := (⟨2, ![1, 128]⟩ : Shape).Idx
abbrev Ih1 := (⟨2, ![128, 1]⟩ : Shape).Idx
abbrev I11 := (⟨2, ![1, 1]⟩ : Shape).Idx
abbrev In1 := (⟨2, ![10000, 1]⟩ : Shape).Idx
abbrev Ih := (⟨1, ![128]⟩ : Shape).Idx
abbrev I1 := (⟨1, ![1]⟩ : Shape).Idx

/-! ## The kernel's stages, each array as one function of the arrays it reads -/

/-- The support x·W1: entry (r, l) is ∑_q x(r, q) · W1(q, l). -/
def support (x : Inh → EReal) (W1 : Ihh → EReal) : Inh → EReal :=
  fun i => ∑ q : Fin 128, x (ix2 (i 0) q) * W1 (ix2 q (i 1))

/-- The head folded into the second layer's weights, W2·Wlin: entry (l, u) is ∑_j W2(l, j) · Wlin(j, u). -/
def headVec (W2 : Ihh → EReal) (Wl : Ih1 → EReal) : Ih1 → EReal :=
  fun i => ∑ j : Fin 128, W2 (ix2 (i 0) j) * Wl (ix2 j (i 1))

/-- The folded bias b2·Wlin + blin, a 1×1 array. -/
def headBias (b2r : I1h → EReal) (Wl : Ih1 → EReal) (blr : I11 → EReal) : I11 → EReal :=
  fun i => (∑ j : Fin 128, b2r (ix2 (i 0) j) * Wl (ix2 j (i 1))) + blr (ix2 (i 0) (i 1))

/-- The first layer with the folded head applied: v(r, u) = ∑_l max(∑_k A(r, k) · s(k, l) + b1(0, l), 0) · wv(l, u). -/
def layer1 (A : Inn → EReal) (s : Inh → EReal) (b1r : I1h → EReal) (wv : Ih1 → EReal) : In1 → EReal :=
  fun i => ∑ l : Fin 128,
    max ((∑ k : Fin 10000, A (ix2 (i 0) k) * s (ix2 k l)) + b1r (ix2 (0 : Fin 1) l)) 0 * wv (ix2 l (i 1))

/-- The second layer as a matrix-vector product plus the folded bias: out(r, u) = ∑_k A(r, k) · v(k, u) + c(0, 0). -/
def layer2 (A : Inn → EReal) (v : In1 → EReal) (cc : I11 → EReal) : In1 → EReal :=
  fun i => (∑ k : Fin 10000, A (ix2 (i 0) k) * v (ix2 k (i 1))) + cc (ix2 (0 : Fin 1) (0 : Fin 1))

/-- A vector of 128 entries laid out as one row. -/
def row (b : Ih → EReal) : I1h → EReal := fun i => b (ix1 (i 1))
/-- A vector of one entry laid out as a 1×1 array. -/
def cell (b : I1 → EReal) : I11 → EReal := fun i => b (ix1 (i 1))

/-- What the kernel's three stages compute, composed. -/
def kernelOut (A : Inn → EReal) (x : Inh → EReal) (W1 : Ihh → EReal) (b1 : Ih → EReal) (W2 : Ihh → EReal)
    (b2 : Ih → EReal) (Wl : Ih1 → EReal) (bl : I1 → EReal) : In1 → EReal :=
  layer2 A (layer1 A (support x W1) (row b1) (headVec W2 Wl)) (headBias (row b2) Wl (cell bl))

/-! ## The reference, the same way -/

/-- The hidden activations relu(A·(x·W1) + b1): entry (k, l). -/
def hidden (A : Inn → EReal) (x : Inh → EReal) (W1 : Ihh → EReal) (b1 : Ih → EReal) (k : Fin 10000) (l : Fin 128) : EReal :=
  max ((∑ k' : Fin 10000, A (ix2 k k') * ∑ q : Fin 128, x (ix2 k' q) * W1 (ix2 q l)) + b1 (ix1 l)) 0

/-- The reference: ((A · hidden · W2 + b2) · Wlin + blin) at (r, u). -/
def refOut (A : Inn → EReal) (x : Inh → EReal) (W1 : Ihh → EReal) (b1 : Ih → EReal) (W2 : Ihh → EReal)
    (b2 : Ih → EReal) (Wl : Ih1 → EReal) (bl : I1 → EReal) : In1 → EReal :=
  fun i => (∑ j : Fin 128,
      ((∑ k : Fin 10000, A (ix2 (i 0) k) * ∑ l : Fin 128, hidden A x W1 b1 k l * W2 (ix2 l j)) + b2 (ix1 j))
        * Wl (ix2 j (i 1))) + bl (ix1 (0 : Fin 1))

/-! ## The law over the reals -/

/-- Moving the head in front of the convolution: distributivity and the exchange of finite sums. -/
theorem head_commutes {K L J : Type} [Fintype K] [Fintype L] [Fintype J]
    (A : K → ℝ) (H : K → L → ℝ) (W : L → J → ℝ) (b w : J → ℝ) (c : ℝ) :
    (∑ k, A k * ∑ l, H k l * ∑ j, W l j * w j) + ((∑ j, b j * w j) + c)
      = (∑ j, ((∑ k, A k * ∑ l, H k l * W l j) + b j) * w j) + c := by
  have key : ∑ j, (∑ k, A k * ∑ l, H k l * W l j) * w j = ∑ k, A k * ∑ l, H k l * ∑ j, W l j * w j := by
    simp only [Finset.mul_sum, Finset.sum_mul]
    rw [Finset.sum_comm]
    refine Finset.sum_congr rfl fun k _ => ?_
    rw [Finset.sum_comm]
    exact Finset.sum_congr rfl fun l _ => Finset.sum_congr rfl fun j _ => by ring
  simp only [add_mul, Finset.sum_add_distrib]
  rw [key]; ring

/-! ## The bridge on the extended reals, for real inputs -/

/-- With every input entry a real number the kernel's composed stages and the reference agree entry by entry. -/
theorem kernelOut_eq_refOut (A : Inn → EReal) (x : Inh → EReal) (W1 : Ihh → EReal) (b1 : Ih → EReal) (W2 : Ihh → EReal)
    (b2 : Ih → EReal) (Wl : Ih1 → EReal) (bl : I1 → EReal)
    (hA : ∀ i, ∃ r : ℝ, A i = (r : EReal)) (hx : ∀ i, ∃ r : ℝ, x i = (r : EReal))
    (hW1 : ∀ i, ∃ r : ℝ, W1 i = (r : EReal)) (hb1 : ∀ i, ∃ r : ℝ, b1 i = (r : EReal))
    (hW2 : ∀ i, ∃ r : ℝ, W2 i = (r : EReal)) (hb2 : ∀ i, ∃ r : ℝ, b2 i = (r : EReal))
    (hWl : ∀ i, ∃ r : ℝ, Wl i = (r : EReal)) (hbl : ∀ i, ∃ r : ℝ, bl i = (r : EReal)) :
    kernelOut A x W1 b1 W2 b2 Wl bl = refOut A x W1 b1 W2 b2 Wl bl := by
  choose a ha using hA
  choose x' hx' using hx
  choose w1 hw1 using hW1
  choose c1 hc1 using hb1
  choose w2 hw2 using hW2
  choose c2 hc2 using hb2
  choose wl hwl using hWl
  choose cl hcl using hbl
  obtain rfl : A = fun i => (a i : EReal) := funext ha
  obtain rfl : x = fun i => (x' i : EReal) := funext hx'
  obtain rfl : W1 = fun i => (w1 i : EReal) := funext hw1
  obtain rfl : b1 = fun i => (c1 i : EReal) := funext hc1
  obtain rfl : W2 = fun i => (w2 i : EReal) := funext hw2
  obtain rfl : b2 = fun i => (c2 i : EReal) := funext hc2
  obtain rfl : Wl = fun i => (wl i : EReal) := funext hwl
  obtain rfl : bl = fun i => (cl i : EReal) := funext hcl
  funext i
  obtain ⟨r, u, rfl⟩ : ∃ (r : Fin 10000) (u : Fin 1), i = ix2 r u := ⟨i 0, i 1, eq_ix2 i⟩
  obtain rfl : u = 0 := Subsingleton.elim _ _
  simp only [kernelOut, layer2, layer1, support, row, cell, headVec, headBias, refOut, hidden,
    PlainMatmul.ix2_at0, PlainMatmul.ix2_at1]
  -- every entry is a coerced real: pull the coercion to the outside of both sides
  simp only [← EReal.coe_zero, ← EReal.coe_mul, ← EReal.coe_add, ← PlainMatmul.coe_sum, ← PlainMatmul.coe_max]
  refine congrArg _ ?_
  exact head_commutes (fun k => a (ix2 r k))
    (fun k l => max ((∑ k' : Fin 10000, a (ix2 k k') * ∑ q : Fin 128, x' (ix2 k' q) * w1 (ix2 q l)) + c1 (ix1 l)) 0)
    (fun l j => w2 (ix2 l j)) (fun j => c2 (ix1 j)) (fun j => wl (ix2 j 0)) (cl (ix1 0))

end GcnSpec

end
-- ==== Proof.Stage0.lean ====
/-
  The first pallas_call (the small dense algebra done once), read as values.

  The call has no grid: its one point stages x, W1, W2, the row of b2, Wlin and the 1×1 array of blin whole, and writes
  three arrays whole: the support x·W1 (entry (r, l) = ∑_q x(r, q) · W1(q, l)), the head folded into the second layer's
  weights W2·Wlin (entry (l, u) = ∑_j W2(l, j) · Wlin(j, u)), and the folded bias b2·Wlin + blin (a 1×1 array). Each
  output's one block is the whole array, so after the call the three arrays are `GcnSpec.support`, `GcnSpec.headVec`
  and `GcnSpec.headBias` of the arrays as the call finds them.
-/
import proofs.«157668_g22909355557424_cont_8to1_1761_2_alg».proof.Proof.Gen.KernelIdeal.Frame
import proofs.«157668_g22909355557424_cont_8to1_1761_2_alg».proof.Proof.LibPlainMatmul
import proofs.«157668_g22909355557424_cont_8to1_1761_2_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.Stage0

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## The three payloads at an entry -/

/-- The support's entry (r, l). -/
theorem pay1_apply (x0 : FVec Ideal S10000x128 .f32) (x1 : FVec Ideal S128x128 .f32) (r : Fin 10000) (l : Fin 128) :
    k0_pay1 (F := Ideal) x0 x1 (ix2 r l) = ∑ q : Fin 128, x0 (ix2 r q) * x1 (ix2 q l) := by
  unfold k0_pay1
  rw [PlainMatmul.matmul_zero_apply_of_eq dot_S10000x128_S128x128_S10000x128_1_0_0_1_n_n rfl]

/-- The folded head's entry (l, u). -/
theorem pay2_apply (x2 : FVec Ideal S128x128 .f32) (x4 : FVec Ideal S128x1 .f32) (l : Fin 128) (u : Fin 1) :
    k0_pay2 (F := Ideal) x2 x4 (ix2 l u) = ∑ j : Fin 128, x2 (ix2 l j) * x4 (ix2 j u) := by
  unfold k0_pay2
  rw [PlainMatmul.matmul_zero_apply_of_eq dot_S128x128_S128x1_S128x1_1_0_0_1_n_n rfl]

/-- The folded bias's one entry. -/
theorem pay3_apply (x3 : FVec Ideal S1x128 .f32) (x4 : FVec Ideal S128x1 .f32) (x5 : FVec Ideal S1x1 .f32)
    (a0 a1 : Fin 1) :
    k0_pay3 (F := Ideal) x3 x4 x5 (ix2 a0 a1) = (∑ j : Fin 128, x3 (ix2 a0 j) * x4 (ix2 j a1)) + x5 (ix2 a0 a1) := by
  unfold k0_pay3
  rw [addf_apply, shapeCast_self, shapeCast_self,
    PlainMatmul.matmul_zero_apply_of_eq dot_S1x128_S128x1_S1x1_1_0_0_1_n_n rfl]

/-! ## The blocks are the whole arrays -/

/-- Every window of the call sits at block index (0, 0) at its one point. -/
theorem idx_facts : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

theorem read_x (c : Dev nD) (t : Fin cfg0.N) (r : Fin 10000) (q : Fin 128) :
    iblk0 V c 0 t (ix2 r q) = V c main_arg1 (ix2 r q) := by
  show V c main_arg1 (((cfg0.win 0).blk t).view.emb (ix2 r q)) = _
  refine congrArg (V c main_arg1) (funext fun a => Fin.ext ?_)
  obtain ⟨e0, e1, -⟩ := idx_facts t
  match a with
  | ⟨0, _⟩ => show win0_0.index t (0 : Fin 2) * 10000 + 1 * r.val = r.val; omega
  | ⟨1, _⟩ => show win0_0.index t (1 : Fin 2) * 128 + 1 * q.val = q.val; omega

theorem read_W1 (c : Dev nD) (t : Fin cfg0.N) (q l : Fin 128) :
    iblk0 V c 1 t (ix2 q l) = V c main_arg2 (ix2 q l) := by
  show V c main_arg2 (((cfg0.win 1).blk t).view.emb (ix2 q l)) = _
  refine congrArg (V c main_arg2) (funext fun a => Fin.ext ?_)
  obtain ⟨-, -, e0, e1, -⟩ := idx_facts t
  match a with
  | ⟨0, _⟩ => show win0_1.index t (0 : Fin 2) * 128 + 1 * q.val = q.val; omega
  | ⟨1, _⟩ => show win0_1.index t (1 : Fin 2) * 128 + 1 * l.val = l.val; omega

theorem read_W2 (c : Dev nD) (t : Fin cfg0.N) (l j : Fin 128) :
    iblk0 V c 2 t (ix2 l j) = V c main_arg4 (ix2 l j) := by
  show V c main_arg4 (((cfg0.win 2).blk t).view.emb (ix2 l j)) = _
  refine congrArg (V c main_arg4) (funext fun a => Fin.ext ?_)
  obtain ⟨-, -, -, -, e0, e1, -⟩ := idx_facts t
  match a with
  | ⟨0, _⟩ => show win0_2.index t (0 : Fin 2) * 128 + 1 * l.val = l.val; omega
  | ⟨1, _⟩ => show win0_2.index t (1 : Fin 2) * 128 + 1 * j.val = j.val; omega

theorem read_b2 (c : Dev nD) (t : Fin cfg0.N) (a0 : Fin 1) (j : Fin 128) :
    iblk0 V c 3 t (ix2 a0 j) = V c main_v0 (ix2 a0 j) := by
  show V c main_v0 (((cfg0.win 3).blk t).view.emb (ix2 a0 j)) = _
  refine congrArg (V c main_v0) (funext fun a => Fin.ext ?_)
  obtain ⟨-, -, -, -, -, -, e0, e1, -⟩ := idx_facts t
  match a with
  | ⟨0, _⟩ => show win0_3.index t (0 : Fin 2) * 1 + 1 * a0.val = a0.val; omega
  | ⟨1, _⟩ => show win0_3.index t (1 : Fin 2) * 128 + 1 * j.val = j.val; omega

theorem read_Wl (c : Dev nD) (t : Fin cfg0.N) (j : Fin 128) (u : Fin 1) :
    iblk0 V c 4 t (ix2 j u) = V c main_arg6 (ix2 j u) := by
  show V c main_arg6 (((cfg0.win 4).blk t).view.emb (ix2 j u)) = _
  refine congrArg (V c main_arg6) (funext fun a => Fin.ext ?_)
  obtain ⟨-, -, -, -, -, -, -, -, e0, e1, -⟩ := idx_facts t
  match a with
  | ⟨0, _⟩ => show win0_4.index t (0 : Fin 2) * 128 + 1 * j.val = j.val; omega
  | ⟨1, _⟩ => show win0_4.index t (1 : Fin 2) * 1 + 1 * u.val = u.val; omega

theorem read_bl (c : Dev nD) (t : Fin cfg0.N) (a0 a1 : Fin 1) :
    iblk0 V c 5 t (ix2 a0 a1) = V c main_v1 (ix2 a0 a1) := by
  show V c main_v1 (((cfg0.win 5).blk t).view.emb (ix2 a0 a1)) = _
  refine congrArg (V c main_v1) (funext fun a => Fin.ext ?_)
  obtain ⟨-, -, -, -, -, -, -, -, -, -, e0, e1, -⟩ := idx_facts t
  match a with
  | ⟨0, _⟩ => show win0_5.index t (0 : Fin 2) * 1 + 1 * a0.val = a0.val; omega
  | ⟨1, _⟩ => show win0_5.index t (1 : Fin 2) * 1 + 1 * a1.val = a1.val; omega

theorem emb6 (t : Fin cfg0.N) (r : Fin 10000) (l : Fin 128) : ((cfg0.win 6).blk t).view.emb (ix2 r l) = ix2 r l := by
  funext a; apply Fin.ext
  obtain ⟨-, -, -, -, -, -, -, -, -, -, -, -, e0, e1, -⟩ := idx_facts t
  match a with
  | ⟨0, _⟩ => show win0_6.index t (0 : Fin 2) * 10000 + 1 * r.val = r.val; omega
  | ⟨1, _⟩ => show win0_6.index t (1 : Fin 2) * 128 + 1 * l.val = l.val; omega

theorem emb7 (t : Fin cfg0.N) (l : Fin 128) (u : Fin 1) : ((cfg0.win 7).blk t).view.emb (ix2 l u) = ix2 l u := by
  funext a; apply Fin.ext
  obtain ⟨-, -, -, -, -, -, -, -, -, -, -, -, -, -, e0, e1, -⟩ := idx_facts t
  match a with
  | ⟨0, _⟩ => show win0_7.index t (0 : Fin 2) * 128 + 1 * l.val = l.val; omega
  | ⟨1, _⟩ => show win0_7.index t (1 : Fin 2) * 1 + 1 * u.val = u.val; omega

theorem emb8 (t : Fin cfg0.N) (a0 a1 : Fin 1) : ((cfg0.win 8).blk t).view.emb (ix2 a0 a1) = ix2 a0 a1 := by
  funext a; apply Fin.ext
  obtain ⟨-, -, -, -, -, -, -, -, -, -, -, -, -, -, -, -, e0, e1⟩ := idx_facts t
  match a with
  | ⟨0, _⟩ => show win0_8.index t (0 : Fin 2) * 1 + 1 * a0.val = a0.val; omega
  | ⟨1, _⟩ => show win0_8.index t (1 : Fin 2) * 1 + 1 * a1.val = a1.val; omega

/-! ## What the one point writes back -/

theorem flushed6_eq (c : Dev nD) (t : Fin cfg0.N) :
    (dat0 V c).flushed 6 t
      = ((cfg0.win 6).blk t).view.read (Elt Ideal) (GcnSpec.support (V c main_arg1) (V c main_arg2)) := by
  show (cfg0.win 6).cut (grid0.coords t) ((dat0 V c).after 6 t) = _
  rw [after0_6]
  unfold out0_6
  rw [View.canon_unit_zero hz]
  simp only [View.ld_unit_zero (S := S10000x128) hz, View.ld_unit_zero (S := S128x128) hz]
  funext j
  obtain ⟨r, l, rfl⟩ : ∃ (r : Fin 10000) (l : Fin 128), j = ix2 r l := ⟨j 0, j 1, eq_ix2 j⟩
  show k0_pay1 (F := Ideal) (iblk0 V c 0 t) (iblk0 V c 1 t) (ix2 r l)
    = GcnSpec.support (V c main_arg1) (V c main_arg2) (((cfg0.win 6).blk t).view.emb (ix2 r l))
  rw [emb6 t r l]
  refine (pay1_apply (iblk0 V c 0 t) (iblk0 V c 1 t) r l).trans ?_
  unfold GcnSpec.support
  refine Finset.sum_congr rfl fun q _ => ?_
  rw [read_x V c t r q, read_W1 V c t q l]

theorem flushed7_eq (c : Dev nD) (t : Fin cfg0.N) :
    (dat0 V c).flushed 7 t
      = ((cfg0.win 7).blk t).view.read (Elt Ideal) (GcnSpec.headVec (V c main_arg4) (V c main_arg6)) := by
  show (cfg0.win 7).cut (grid0.coords t) ((dat0 V c).after 7 t) = _
  rw [after0_7]
  unfold out0_7
  rw [View.canon_unit_zero hz]
  simp only [View.ld_unit_zero (S := S128x128) hz, View.ld_unit_zero (S := S128x1) hz]
  funext j
  obtain ⟨l, u, rfl⟩ : ∃ (l : Fin 128) (u : Fin 1), j = ix2 l u := ⟨j 0, j 1, eq_ix2 j⟩
  show k0_pay2 (F := Ideal) (iblk0 V c 2 t) (iblk0 V c 4 t) (ix2 l u)
    = GcnSpec.headVec (V c main_arg4) (V c main_arg6) (((cfg0.win 7).blk t).view.emb (ix2 l u))
  rw [emb7 t l u]
  refine (pay2_apply (iblk0 V c 2 t) (iblk0 V c 4 t) l u).trans ?_
  unfold GcnSpec.headVec
  refine Finset.sum_congr rfl fun j _ => ?_
  rw [read_W2 V c t l j, read_Wl V c t j u]

theorem flushed8_eq (c : Dev nD) (t : Fin cfg0.N) :
    (dat0 V c).flushed 8 t
      = ((cfg0.win 8).blk t).view.read (Elt Ideal) (GcnSpec.headBias (V c main_v0) (V c main_arg6) (V c main_v1)) := by
  show (cfg0.win 8).cut (grid0.coords t) ((dat0 V c).after 8 t) = _
  rw [after0_8]
  unfold out0_8
  rw [View.canon_unit_zero hz]
  simp only [View.ld_unit_zero (S := S1x128) hz, View.ld_unit_zero (S := S128x1) hz, View.ld_unit_zero (S := S1x1) hz]
  funext j
  obtain ⟨a0, a1, rfl⟩ : ∃ (a0 : Fin 1) (a1 : Fin 1), j = ix2 a0 a1 := ⟨j 0, j 1, eq_ix2 j⟩
  show k0_pay3 (F := Ideal) (iblk0 V c 3 t) (iblk0 V c 4 t) (iblk0 V c 5 t) (ix2 a0 a1)
    = GcnSpec.headBias (V c main_v0) (V c main_arg6) (V c main_v1) (((cfg0.win 8).blk t).view.emb (ix2 a0 a1))
  rw [emb8 t a0 a1]
  refine (pay3_apply (iblk0 V c 3 t) (iblk0 V c 4 t) (iblk0 V c 5 t) a0 a1).trans ?_
  unfold GcnSpec.headBias
  rw [read_bl V c t a0 a1]
  refine congrArg (· + V c main_v1 (ix2 a0 a1)) (Finset.sum_congr rfl fun j _ => ?_)
  rw [read_b2 V c t a0 j, read_Wl V c t j a1]

/-! ## The one block of each output is the whole array -/

theorem mem_blk6 (t : Fin cfg0.N) (i : S10000x128.Idx) :
    i ∈ ((cfg0.win 6).blk t).view.set ↔ ∀ a : Fin 2, win0_6.index t a * S10000x128.size a ≤ (i a).val
      ∧ (i a).val < win0_6.index t a * S10000x128.size a + S10000x128.size a := by
  show i ∈ ((View.whole main_v2_0).slice (win0_6.rect t)).set ↔ _
  rw [View.set_slice_whole, Rect.mem_set_unit]
  exact Iff.rfl

theorem mem_blk7 (t : Fin cfg0.N) (i : S128x1.Idx) :
    i ∈ ((cfg0.win 7).blk t).view.set ↔ ∀ a : Fin 2, win0_7.index t a * S128x1.size a ≤ (i a).val
      ∧ (i a).val < win0_7.index t a * S128x1.size a + S128x1.size a := by
  show i ∈ ((View.whole main_v2_1).slice (win0_7.rect t)).set ↔ _
  rw [View.set_slice_whole, Rect.mem_set_unit]
  exact Iff.rfl

theorem mem_blk8 (t : Fin cfg0.N) (i : S1x1.Idx) :
    i ∈ ((cfg0.win 8).blk t).view.set ↔ ∀ a : Fin 2, win0_8.index t a * S1x1.size a ≤ (i a).val
      ∧ (i a).val < win0_8.index t a * S1x1.size a + S1x1.size a := by
  show i ∈ ((View.whole main_v2_2).slice (win0_8.rect t)).set ↔ _
  rw [View.set_slice_whole, Rect.mem_set_unit]
  exact Iff.rfl

theorem point0 : (0 : Nat) < cfg0.N := by decide

theorem cover6 (i : S10000x128.Idx) :
    ∃ t : Fin cfg0.N, (cfg0.win 6).flush t = true ∧ i ∈ ((cfg0.win 6).blk t).view.set := by
  have hi0 : (i 0).val < 10000 := (i 0).isLt
  have hi1 : (i 1).val < 128 := (i 1).isLt
  refine ⟨⟨0, point0⟩, flush0_6 _, ?_⟩
  rw [mem_blk6]
  obtain ⟨-, -, -, -, -, -, -, -, -, -, -, -, e0, e1, -⟩ := idx_facts ⟨0, point0⟩
  intro a
  match a with
  | ⟨0, _⟩ =>
    show win0_6.index ⟨0, point0⟩ (0 : Fin 2) * 10000 ≤ (i 0).val
      ∧ (i 0).val < win0_6.index ⟨0, point0⟩ (0 : Fin 2) * 10000 + 10000
    omega
  | ⟨1, _⟩ =>
    show win0_6.index ⟨0, point0⟩ (1 : Fin 2) * 128 ≤ (i 1).val
      ∧ (i 1).val < win0_6.index ⟨0, point0⟩ (1 : Fin 2) * 128 + 128
    omega

theorem cover7 (i : S128x1.Idx) :
    ∃ t : Fin cfg0.N, (cfg0.win 7).flush t = true ∧ i ∈ ((cfg0.win 7).blk t).view.set := by
  have hi0 : (i 0).val < 128 := (i 0).isLt
  have hi1 : (i 1).val < 1 := (i 1).isLt
  refine ⟨⟨0, point0⟩, flush0_7 _, ?_⟩
  rw [mem_blk7]
  obtain ⟨-, -, -, -, -, -, -, -, -, -, -, -, -, -, e0, e1, -⟩ := idx_facts ⟨0, point0⟩
  intro a
  match a with
  | ⟨0, _⟩ =>
    show win0_7.index ⟨0, point0⟩ (0 : Fin 2) * 128 ≤ (i 0).val
      ∧ (i 0).val < win0_7.index ⟨0, point0⟩ (0 : Fin 2) * 128 + 128
    omega
  | ⟨1, _⟩ =>
    show win0_7.index ⟨0, point0⟩ (1 : Fin 2) * 1 ≤ (i 1).val
      ∧ (i 1).val < win0_7.index ⟨0, point0⟩ (1 : Fin 2) * 1 + 1
    omega

theorem cover8 (i : S1x1.Idx) :
    ∃ t : Fin cfg0.N, (cfg0.win 8).flush t = true ∧ i ∈ ((cfg0.win 8).blk t).view.set := by
  have hi0 : (i 0).val < 1 := (i 0).isLt
  have hi1 : (i 1).val < 1 := (i 1).isLt
  refine ⟨⟨0, point0⟩, flush0_8 _, ?_⟩
  rw [mem_blk8]
  obtain ⟨-, -, -, -, -, -, -, -, -, -, -, -, -, -, -, -, e0, e1⟩ := idx_facts ⟨0, point0⟩
  intro a
  match a with
  | ⟨0, _⟩ =>
    show win0_8.index ⟨0, point0⟩ (0 : Fin 2) * 1 ≤ (i 0).val
      ∧ (i 0).val < win0_8.index ⟨0, point0⟩ (0 : Fin 2) * 1 + 1
    omega
  | ⟨1, _⟩ =>
    show win0_8.index ⟨0, point0⟩ (1 : Fin 2) * 1 ≤ (i 1).val
      ∧ (i 1).val < win0_8.index ⟨0, point0⟩ (1 : Fin 2) * 1 + 1
    omega

/-! ## The three arrays after the call -/

/-- The support x·W1. -/
theorem final6 (c : Dev nD) : (dat0 V c).arrAt 6 cfg0.N = GcnSpec.support (V c main_arg1) (V c main_arg2) :=
  (dat0 V c).arrAt_eq_of_cover 6 _ (fun t _ => flushed6_eq V c t) cover6

/-- The folded head W2·Wlin. -/
theorem final7 (c : Dev nD) : (dat0 V c).arrAt 7 cfg0.N = GcnSpec.headVec (V c main_arg4) (V c main_arg6) :=
  (dat0 V c).arrAt_eq_of_cover 7 _ (fun t _ => flushed7_eq V c t) cover7

/-- The folded bias b2·Wlin + blin. -/
theorem final8 (c : Dev nD) :
    (dat0 V c).arrAt 8 cfg0.N = GcnSpec.headBias (V c main_v0) (V c main_arg6) (V c main_v1) :=
  (dat0 V c).arrAt_eq_of_cover 8 _ (fun t _ => flushed8_eq V c t) cover8

end Cert.KernelIdeal.Stage0

end
-- ==== Proof.Stage1.lean ====
/-
  The second pallas_call (the first layer with the folded head applied), read as values.

  Grid point t of 25 stages rows 400·t … 400·t + 399 of the adjacency A, the whole support s = x·W1, the bias row b1
  and the folded head wv = W2·Wlin, and writes back rows 400·t … 400·t + 399 of v: entry (p, u) of the block is
  ∑_l max(∑_k A(400·t + p, k) · s(k, l) + b1(0, l), 0) · wv(l, u). The 25 blocks tile the 10000 rows, so the array v
  after the call is `GcnSpec.layer1` of the four arrays as the call finds them.
-/
import proofs.«157668_g22909355557424_cont_8to1_1761_2_alg».proof.Proof.Gen.KernelIdeal.Frame
import proofs.«157668_g22909355557424_cont_8to1_1761_2_alg».proof.Proof.LibPlainMatmul
import proofs.«157668_g22909355557424_cont_8to1_1761_2_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.Stage1

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's result at the entry (p, u) of its block: row p of the staged rows of A against the support, the bias row
    added, the maximum with 0 taken, and the row of 128 activations contracted with the folded head. -/
theorem pay_apply (x0 : FVec Ideal S400x10000 .f32) (x1 : FVec Ideal S10000x128 .f32) (x2 : FVec Ideal S1x128 .f32)
    (x3 : FVec Ideal S128x1 .f32) (p : Fin 400) (u : Fin 1) :
    k1_pay1 (F := Ideal) x0 x1 x2 x3 (ix2 p u)
      = ∑ l : Fin 128, max ((∑ k : Fin 10000, x0 (ix2 p k) * x1 (ix2 k l)) + x2 (ix2 (0 : Fin 1) l)) 0 * x3 (ix2 l u) := by
  unfold k1_pay1
  rw [shapeCast_self, shapeCast_self, shapeCast_self,
    PlainMatmul.matmul_zero_apply_of_eq dot_S400x128_S128x1_S400x1_1_0_0_1_n_n rfl]
  refine Finset.sum_congr rfl fun l _ => ?_
  rw [maximumf_apply, addf_apply,
    PlainMatmul.matmul_zero_apply_of_eq dot_S400x10000_S10000x128_S400x128_1_0_0_1_n_n rfl,
    broadcastTo_1b_ab_apply, broadcast_apply]
  rw [show (Scalar.ofBits .f32 0x00000000#32 : Ideal .f32) = 0 from Ideal.ofBits_zero_f32]

/-- The printed index maps over the grid: the rows of A and of v move with the point, everything else stays. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

theorem point_lt (t : Fin cfg1.N) : t.val < 25 := t.isLt

/-- The staged block of A at point t, entry (p, k), is A(400·t + p, k). -/
theorem read_adj (c : Dev nD) (t : Fin cfg1.N) (p : Fin 400) (k : Fin 10000) (hp : t.val * 400 + p.val < 10000) :
    iblk1 V c 0 t (ix2 p k) = V c main_arg0 (ix2 ⟨t.val * 400 + p.val, hp⟩ k) := by
  show V c main_arg0 (((cfg1.win 0).blk t).view.emb (ix2 p k)) = _
  refine congrArg (V c main_arg0) (funext fun a => Fin.ext ?_)
  obtain ⟨e0, e1, -⟩ := idx_facts t
  match a with
  | ⟨0, _⟩ => show win1_0.index t (0 : Fin 2) * 400 + 1 * p.val = t.val * 400 + p.val; omega
  | ⟨1, _⟩ => show win1_0.index t (1 : Fin 2) * 10000 + 1 * k.val = k.val; omega

/-- The staged support is the whole array. -/
theorem read_s (c : Dev nD) (t : Fin cfg1.N) (k : Fin 10000) (l : Fin 128) :
    iblk1 V c 1 t (ix2 k l) = V c main_v2_0 (ix2 k l) := by
  show V c main_v2_0 (((cfg1.win 1).blk t).view.emb (ix2 k l)) = _
  refine congrArg (V c main_v2_0) (funext fun a => Fin.ext ?_)
  obtain ⟨-, -, e2, e3, -⟩ := idx_facts t
  match a with
  | ⟨0, _⟩ => show win1_1.index t (0 : Fin 2) * 10000 + 1 * k.val = k.val; omega
  | ⟨1, _⟩ => show win1_1.index t (1 : Fin 2) * 128 + 1 * l.val = l.val; omega

/-- The staged bias row is the whole row. -/
theorem read_b1 (c : Dev nD) (t : Fin cfg1.N) (a0 : Fin 1) (l : Fin 128) :
    iblk1 V c 2 t (ix2 a0 l) = V c main_v3 (ix2 a0 l) := by
  show V c main_v3 (((cfg1.win 2).blk t).view.emb (ix2 a0 l)) = _
  refine congrArg (V c main_v3) (funext fun a => Fin.ext ?_)
  obtain ⟨-, -, -, -, e4, e5, -⟩ := idx_facts t
  match a with
  | ⟨0, _⟩ => show win1_2.index t (0 : Fin 2) * 1 + 1 * a0.val = a0.val; omega
  | ⟨1, _⟩ => show win1_2.index t (1 : Fin 2) * 128 + 1 * l.val = l.val; omega

/-- The staged folded head is the whole column. -/
theorem read_wv (c : Dev nD) (t : Fin cfg1.N) (l : Fin 128) (u : Fin 1) :
    iblk1 V c 3 t (ix2 l u) = V c main_v2_1 (ix2 l u) := by
  show V c main_v2_1 (((cfg1.win 3).blk t).view.emb (ix2 l u)) = _
  refine congrArg (V c main_v2_1) (funext fun a => Fin.ext ?_)
  obtain ⟨-, -, -, -, -, -, e6, e7, -⟩ := idx_facts t
  match a with
  | ⟨0, _⟩ => show win1_3.index t (0 : Fin 2) * 128 + 1 * l.val = l.val; omega
  | ⟨1, _⟩ => show win1_3.index t (1 : Fin 2) * 1 + 1 * u.val = u.val; omega

/-- Entry (p, u) of v's block at point t is entry (400·t + p, u) of the array. -/
theorem emb_out (t : Fin cfg1.N) (p : Fin 400) (u : Fin 1) (hp : t.val * 400 + p.val < 10000) :
    ((cfg1.win 4).blk t).view.emb (ix2 p u) = ix2 ⟨t.val * 400 + p.val, hp⟩ u := by
  funext a; apply Fin.ext
  obtain ⟨-, -, -, -, -, -, -, -, e8, e9⟩ := idx_facts t
  match a with
  | ⟨0, _⟩ => show win1_4.index t (0 : Fin 2) * 400 + 1 * p.val = t.val * 400 + p.val; omega
  | ⟨1, _⟩ => show win1_4.index t (1 : Fin 2) * 1 + 1 * u.val = u.val; omega

/-- WHAT POINT t WRITES BACK is block t of `layer1` of the four arrays as the call finds them. -/
theorem flushed_eq (c : Dev nD) (t : Fin cfg1.N) :
    (dat1 V c).flushed 4 t
      = ((cfg1.win 4).blk t).view.read (Elt Ideal)
          (GcnSpec.layer1 (V c main_arg0) (V c main_v2_0) (V c main_v3) (V c main_v2_1)) := by
  show (cfg1.win 4).cut (grid1.coords t) ((dat1 V c).after 4 t) = _
  rw [after1_4]
  unfold out1_4
  rw [View.canon_unit_zero hz]
  simp only [View.ld_unit_zero (S := S400x10000) hz, View.ld_unit_zero (S := S10000x128) hz,
    View.ld_unit_zero (S := S1x128) hz, View.ld_unit_zero (S := S128x1) hz]
  funext j
  obtain ⟨p, u, rfl⟩ : ∃ (p : Fin 400) (u : Fin 1), j = ix2 p u := ⟨j 0, j 1, eq_ix2 j⟩
  have hp : t.val * 400 + p.val < 10000 := by have := point_lt t; have := p.isLt; omega
  show k1_pay1 (F := Ideal) (iblk1 V c 0 t) (iblk1 V c 1 t) (iblk1 V c 2 t) (iblk1 V c 3 t) (ix2 p u)
    = GcnSpec.layer1 (V c main_arg0) (V c main_v2_0) (V c main_v3) (V c main_v2_1)
        (((cfg1.win 4).blk t).view.emb (ix2 p u))
  rw [emb_out t p u hp]
  refine (pay_apply (iblk1 V c 0 t) (iblk1 V c 1 t) (iblk1 V c 2 t) (iblk1 V c 3 t) p u).trans ?_
  unfold GcnSpec.layer1
  refine Finset.sum_congr rfl fun l _ => ?_
  rw [read_b1 V c t 0 l, read_wv V c t l u]
  refine congrArg (fun z => max (z + V c main_v3 (ix2 (0 : Fin 1) l)) 0 * V c main_v2_1 (ix2 l u))
    (Finset.sum_congr rfl fun k _ => ?_)
  rw [read_adj V c t p k hp, read_s V c t k l]

/-- An index of the array v is in point t's block iff each coordinate is in the block's range on its axis. -/
theorem mem_blk (t : Fin cfg1.N) (i : S10000x1.Idx) :
    i ∈ ((cfg1.win 4).blk t).view.set ↔ ∀ a : Fin 2, win1_4.index t a * S400x1.size a ≤ (i a).val
      ∧ (i a).val < win1_4.index t a * S400x1.size a + S400x1.size a := by
  show i ∈ ((View.whole main_v4).slice (win1_4.rect t)).set ↔ _
  rw [View.set_slice_whole, Rect.mem_set_unit]
  exact Iff.rfl

/-- Row r of v lies in the block of point r / 400: the 25 blocks tile the array. -/
theorem cover (i : S10000x1.Idx) :
    ∃ t : Fin cfg1.N, (cfg1.win 4).flush t = true ∧ i ∈ ((cfg1.win 4).blk t).view.set := by
  have hi0 : (i 0).val < 10000 := (i 0).isLt
  have hi1 : (i 1).val < 1 := (i 1).isLt
  have ht : (i 0).val / 400 < 25 := by omega
  refine ⟨⟨(i 0).val / 400, ht⟩, flush1_4 _, ?_⟩
  rw [mem_blk]
  obtain ⟨-, -, -, -, -, -, -, -, e8, e9⟩ := idx_facts ⟨(i 0).val / 400, ht⟩
  have e8' : win1_4.index ⟨(i 0).val / 400, ht⟩ (0 : Fin 2) = (i 0).val / 400 := e8
  intro a
  match a with
  | ⟨0, _⟩ =>
    show win1_4.index ⟨(i 0).val / 400, ht⟩ (0 : Fin 2) * 400 ≤ (i 0).val
      ∧ (i 0).val < win1_4.index ⟨(i 0).val / 400, ht⟩ (0 : Fin 2) * 400 + 400
    omega
  | ⟨1, _⟩ =>
    show win1_4.index ⟨(i 0).val / 400, ht⟩ (1 : Fin 2) * 1 ≤ (i 1).val
      ∧ (i 1).val < win1_4.index ⟨(i 0).val / 400, ht⟩ (1 : Fin 2) * 1 + 1
    omega

/-- THE ARRAY v after the call: `layer1` of the adjacency, the support, the bias row and the folded head as the call
    finds them. -/
theorem final (c : Dev nD) :
    (dat1 V c).arrAt 4 cfg1.N = GcnSpec.layer1 (V c main_arg0) (V c main_v2_0) (V c main_v3) (V c main_v2_1) :=
  (dat1 V c).arrAt_eq_of_cover 4 _ (fun t _ => flushed_eq V c t) cover

end Cert.KernelIdeal.Stage1

end
-- ==== Proof.Stage2.lean ====
/-
  The third pallas_call (the second layer as a matrix-vector product), read as values.

  Grid point t of 25 stages rows 400·t … 400·t + 399 of the adjacency A (all 10000 columns), the whole vector v and the
  1×1 array c, and writes back rows 400·t … 400·t + 399 of the result: entry (p, u) of the block is
  ∑_k A(400·t + p, k) · v(k, u) + c(0, 0). The 25 blocks tile the 10000 rows, so the result array after the call is
  `GcnSpec.layer2` of the three arrays as the call finds them.
-/
import proofs.«157668_g22909355557424_cont_8to1_1761_2_alg».proof.Proof.Gen.KernelIdeal.Frame
import proofs.«157668_g22909355557424_cont_8to1_1761_2_alg».proof.Proof.LibPlainMatmul
import proofs.«157668_g22909355557424_cont_8to1_1761_2_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.Stage2

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's result at the entry (p, u) of its block: the row p of the staged rows of A against v, plus c. -/
theorem pay_apply (x0 : FVec Ideal S400x10000 .f32) (x1 : FVec Ideal S10000x1 .f32) (x2 : FVec Ideal S1x1 .f32)
    (p : Fin 400) (u : Fin 1) :
    k2_pay1 (F := Ideal) x0 x1 x2 (ix2 p u)
      = (∑ k : Fin 10000, x0 (ix2 p k) * x1 (ix2 k u)) + x2 (ix2 (0 : Fin 1) (0 : Fin 1)) := by
  unfold k2_pay1
  rw [addf_apply, shapeCast_self, shapeCast_self,
    PlainMatmul.matmul_zero_apply_of_eq dot_S400x10000_S10000x1_S400x1_1_0_0_1_n_n rfl,
    broadcastTo_1b_ab_apply]
  obtain rfl : u = 0 := Subsingleton.elim _ _
  rfl

/-- The printed index maps over the grid: the rows of A and of the result move with the point, everything else stays. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

theorem point_lt (t : Fin cfg2.N) : t.val < 25 := t.isLt

/-- The staged block of A at point t, entry (p, k), is A(400·t + p, k). -/
theorem read_adj (c : Dev nD) (t : Fin cfg2.N) (p : Fin 400) (k : Fin 10000) (hp : t.val * 400 + p.val < 10000) :
    iblk2 V c 0 t (ix2 p k) = V c main_arg0 (ix2 ⟨t.val * 400 + p.val, hp⟩ k) := by
  show V c main_arg0 (((cfg2.win 0).blk t).view.emb (ix2 p k)) = _
  refine congrArg (V c main_arg0) (funext fun a => Fin.ext ?_)
  obtain ⟨e0, e1, -⟩ := idx_facts t
  match a with
  | ⟨0, _⟩ => show win2_0.index t (0 : Fin 2) * 400 + 1 * p.val = t.val * 400 + p.val; omega
  | ⟨1, _⟩ => show win2_0.index t (1 : Fin 2) * 10000 + 1 * k.val = k.val; omega

/-- The staged v is the whole vector. -/
theorem read_v (c : Dev nD) (t : Fin cfg2.N) (k : Fin 10000) (u : Fin 1) :
    iblk2 V c 1 t (ix2 k u) = V c main_v4 (ix2 k u) := by
  show V c main_v4 (((cfg2.win 1).blk t).view.emb (ix2 k u)) = _
  refine congrArg (V c main_v4) (funext fun a => Fin.ext ?_)
  obtain ⟨-, -, e2, e3, -⟩ := idx_facts t
  match a with
  | ⟨0, _⟩ => show win2_1.index t (0 : Fin 2) * 10000 + 1 * k.val = k.val; omega
  | ⟨1, _⟩ => show win2_1.index t (1 : Fin 2) * 1 + 1 * u.val = u.val; omega

/-- The staged c is the whole 1×1 array. -/
theorem read_c (c : Dev nD) (t : Fin cfg2.N) (a0 a1 : Fin 1) :
    iblk2 V c 2 t (ix2 a0 a1) = V c main_v2_2 (ix2 a0 a1) := by
  show V c main_v2_2 (((cfg2.win 2).blk t).view.emb (ix2 a0 a1)) = _
  refine congrArg (V c main_v2_2) (funext fun a => Fin.ext ?_)
  obtain ⟨-, -, -, -, e4, e5, -⟩ := idx_facts t
  match a with
  | ⟨0, _⟩ => show win2_2.index t (0 : Fin 2) * 1 + 1 * a0.val = a0.val; omega
  | ⟨1, _⟩ => show win2_2.index t (1 : Fin 2) * 1 + 1 * a1.val = a1.val; omega

/-- Entry (p, u) of the result's block at point t is entry (400·t + p, u) of the array. -/
theorem emb_out (t : Fin cfg2.N) (p : Fin 400) (u : Fin 1) (hp : t.val * 400 + p.val < 10000) :
    ((cfg2.win 3).blk t).view.emb (ix2 p u) = ix2 ⟨t.val * 400 + p.val, hp⟩ u := by
  funext a; apply Fin.ext
  obtain ⟨-, -, -, -, -, -, e6, e7⟩ := idx_facts t
  match a with
  | ⟨0, _⟩ => show win2_3.index t (0 : Fin 2) * 400 + 1 * p.val = t.val * 400 + p.val; omega
  | ⟨1, _⟩ => show win2_3.index t (1 : Fin 2) * 1 + 1 * u.val = u.val; omega

/-- WHAT POINT t WRITES BACK is block t of `layer2` of the three arrays as the call finds them. -/
theorem flushed_eq (c : Dev nD) (t : Fin cfg2.N) :
    (dat2 V c).flushed 3 t
      = ((cfg2.win 3).blk t).view.read (Elt Ideal) (GcnSpec.layer2 (V c main_arg0) (V c main_v4) (V c main_v2_2)) := by
  show (cfg2.win 3).cut (grid2.coords t) ((dat2 V c).after 3 t) = _
  rw [after2_3]
  unfold out2_3
  rw [View.canon_unit_zero hz]
  simp only [View.ld_unit_zero (S := S400x10000) hz, View.ld_unit_zero (S := S10000x1) hz, View.ld_unit_zero (S := S1x1) hz]
  funext j
  obtain ⟨p, u, rfl⟩ : ∃ (p : Fin 400) (u : Fin 1), j = ix2 p u := ⟨j 0, j 1, eq_ix2 j⟩
  have hp : t.val * 400 + p.val < 10000 := by have := point_lt t; have := p.isLt; omega
  show k2_pay1 (F := Ideal) (iblk2 V c 0 t) (iblk2 V c 1 t) (iblk2 V c 2 t) (ix2 p u)
    = GcnSpec.layer2 (V c main_arg0) (V c main_v4) (V c main_v2_2) (((cfg2.win 3).blk t).view.emb (ix2 p u))
  rw [emb_out t p u hp]
  refine (pay_apply (iblk2 V c 0 t) (iblk2 V c 1 t) (iblk2 V c 2 t) p u).trans ?_
  unfold GcnSpec.layer2
  rw [read_c V c t 0 0]
  refine congrArg (· + V c main_v2_2 (ix2 (0 : Fin 1) (0 : Fin 1))) (Finset.sum_congr rfl fun k _ => ?_)
  rw [read_adj V c t p k hp, read_v V c t k u]

/-- An index of the result array is in point t's block iff each coordinate is in the block's range on its axis. -/
theorem mem_blk (t : Fin cfg2.N) (i : S10000x1.Idx) :
    i ∈ ((cfg2.win 3).blk t).view.set ↔ ∀ a : Fin 2, win2_3.index t a * S400x1.size a ≤ (i a).val
      ∧ (i a).val < win2_3.index t a * S400x1.size a + S400x1.size a := by
  show i ∈ ((View.whole main_v5).slice (win2_3.rect t)).set ↔ _
  rw [View.set_slice_whole, Rect.mem_set_unit]
  exact Iff.rfl

/-- Row r of the result lies in the block of point r / 400: the 25 blocks tile the array. -/
theorem cover (i : S10000x1.Idx) :
    ∃ t : Fin cfg2.N, (cfg2.win 3).flush t = true ∧ i ∈ ((cfg2.win 3).blk t).view.set := by
  have hi0 : (i 0).val < 10000 := (i 0).isLt
  have hi1 : (i 1).val < 1 := (i 1).isLt
  have ht : (i 0).val / 400 < 25 := by omega
  refine ⟨⟨(i 0).val / 400, ht⟩, flush2_3 _, ?_⟩
  rw [mem_blk]
  obtain ⟨-, -, -, -, -, -, e6, e7⟩ := idx_facts ⟨(i 0).val / 400, ht⟩
  have e6' : win2_3.index ⟨(i 0).val / 400, ht⟩ (0 : Fin 2) = (i 0).val / 400 := e6
  intro a
  match a with
  | ⟨0, _⟩ =>
    show win2_3.index ⟨(i 0).val / 400, ht⟩ (0 : Fin 2) * 400 ≤ (i 0).val
      ∧ (i 0).val < win2_3.index ⟨(i 0).val / 400, ht⟩ (0 : Fin 2) * 400 + 400
    omega
  | ⟨1, _⟩ =>
    show win2_3.index ⟨(i 0).val / 400, ht⟩ (1 : Fin 2) * 1 ≤ (i 1).val
      ∧ (i 1).val < win2_3.index ⟨(i 0).val / 400, ht⟩ (1 : Fin 2) * 1 + 1
    omega

/-- THE RESULT ARRAY after the call: `layer2` of the adjacency, the vector and the 1×1 bias as the call finds them. -/
theorem final (c : Dev nD) :
    (dat2 V c).arrAt 3 cfg2.N = GcnSpec.layer2 (V c main_arg0) (V c main_v4) (V c main_v2_2) :=
  (dat2 V c).arrAt_eq_of_cover 3 _ (fun t _ => flushed_eq V c t) cover

end Cert.KernelIdeal.Stage2

end
-- ==== Proof.Chain.lean ====
/-
  The kernel's result as one function of the launch memory.

  @main runs two reshapes (the rows of b2 and blin), the first pallas_call, one reshape (the row of b1), and the two
  gridded pallas_calls. Following each buffer the later stages read back through these steps — a reshape lays a
  vector out as a row, a pallas_call leaves its outputs at the stage's function of what it found and every other
  buffer alone — the result buffer after the last call is
      layer2 A (layer1 A (x·W1) (row b1) (W2·Wlin)) (row b2 · Wlin + cell blin)
  of the eight argument arrays as launched: `GcnSpec.kernelOut`.
-/
import proofs.«157668_g22909355557424_cont_8to1_1761_2_alg».proof.Proof.Gen.KernelIdeal.Frame
import proofs.«157668_g22909355557424_cont_8to1_1761_2_alg».proof.Proof.Spec
import proofs.«157668_g22909355557424_cont_8to1_1761_2_alg».proof.Proof.Stage0
import proofs.«157668_g22909355557424_cont_8to1_1761_2_alg».proof.Proof.Stage1
import proofs.«157668_g22909355557424_cont_8to1_1761_2_alg».proof.Proof.Stage2
import Idealize.ShloMosaic.Lib.StableHlo.Run
import Idealize.ShloMosaic.Lib.ValueLayout

set_option maxRecDepth 16384

noncomputable section

namespace Cert.KernelIdeal.Chain

open Cert.KernelIdeal Cert.KernelIdeal.Gen
open Idealize.ShloMosaic Idealize.ShloMosaic.TcCoe Idealize.ShloMosaic.ValueIdx Idealize.SL.Sem
open Idealize.ShloMosaic.StableHlo

variable (m : (ℓ : Loc nD τ sig) → Buf (Elt Ideal) ℓ) (ρ : Dev nD → PrngReg)

/-! ## Before the first call: the two reshapes write only their own rows -/

theorem W1_arg0 (c : Dev nD) : W1 m ρ c (Proc.devRef .tc main_arg0) = m ((c : Thread nD τ).loc main_arg0) := by
  dsimp only [W1, hostOps0]; after_results
theorem W1_arg1 (c : Dev nD) : W1 m ρ c (Proc.devRef .tc main_arg1) = m ((c : Thread nD τ).loc main_arg1) := by
  dsimp only [W1, hostOps0]; after_results
theorem W1_arg2 (c : Dev nD) : W1 m ρ c (Proc.devRef .tc main_arg2) = m ((c : Thread nD τ).loc main_arg2) := by
  dsimp only [W1, hostOps0]; after_results
theorem W1_arg3 (c : Dev nD) : W1 m ρ c (Proc.devRef .tc main_arg3) = m ((c : Thread nD τ).loc main_arg3) := by
  dsimp only [W1, hostOps0]; after_results
theorem W1_arg4 (c : Dev nD) : W1 m ρ c (Proc.devRef .tc main_arg4) = m ((c : Thread nD τ).loc main_arg4) := by
  dsimp only [W1, hostOps0]; after_results
theorem W1_arg6 (c : Dev nD) : W1 m ρ c (Proc.devRef .tc main_arg6) = m ((c : Thread nD τ).loc main_arg6) := by
  dsimp only [W1, hostOps0]; after_results

/-- The row of b2. -/
theorem W1_b2row (c : Dev nD) :
    W1 m ρ c (Proc.devRef .tc main_v0) = GcnSpec.row (m ((c : Thread nD τ).loc main_arg5)) := by
  dsimp only [W1, hostOps0]; after_results
  funext i
  obtain ⟨a0, j, rfl⟩ : ∃ (a0 : Fin 1) (j : Fin 128), i = ix2 a0 j := ⟨i 0, i 1, eq_ix2 i⟩
  show shapeCast S1x128 (m ((c : Thread nD τ).loc main_arg5)) shapeCasts_S128_S1x128 (ix2 a0 j)
    = m ((c : Thread nD τ).loc main_arg5) (ix1 j)
  exact shapeCast_a_1a_apply _ _ a0 j

/-- The 1×1 array of blin. -/
theorem W1_blcell (c : Dev nD) :
    W1 m ρ c (Proc.devRef .tc main_v1) = GcnSpec.cell (m ((c : Thread nD τ).loc main_arg7)) := by
  dsimp only [W1, hostOps0]; after_results
  funext i
  obtain ⟨a0, a1, rfl⟩ : ∃ (a0 : Fin 1) (a1 : Fin 1), i = ix2 a0 a1 := ⟨i 0, i 1, eq_ix2 i⟩
  show shapeCast S1x1 (m ((c : Thread nD τ).loc main_arg7)) shapeCasts_S1_S1x1 (ix2 a0 a1)
    = m ((c : Thread nD τ).loc main_arg7) (ix1 a1)
  exact shapeCast_a_1a_apply _ _ a0 a1

/-! ## After the first call -/

/-- The support x·W1 of the launch arrays. -/
theorem W2_support (c : Dev nD) : W2 m ρ c (Proc.devRef .tc main_v2_0)
    = GcnSpec.support (m ((c : Thread nD τ).loc main_arg1)) (m ((c : Thread nD τ).loc main_arg2)) :=
  (W2_arr m ρ c 6).trans ((Stage0.final6 (V1 m ρ) c).trans
    (congrArg₂ GcnSpec.support (W1_arg1 m ρ c) (W1_arg2 m ρ c)))

/-- The folded head W2·Wlin of the launch arrays. -/
theorem W2_headVec (c : Dev nD) : W2 m ρ c (Proc.devRef .tc main_v2_1)
    = GcnSpec.headVec (m ((c : Thread nD τ).loc main_arg4)) (m ((c : Thread nD τ).loc main_arg6)) :=
  (W2_arr m ρ c 7).trans ((Stage0.final7 (V1 m ρ) c).trans
    (congrArg₂ GcnSpec.headVec (W1_arg4 m ρ c) (W1_arg6 m ρ c)))

/-- The folded bias b2·Wlin + blin of the launch arrays. -/
theorem W2_headBias (c : Dev nD) : W2 m ρ c (Proc.devRef .tc main_v2_2)
    = GcnSpec.headBias (GcnSpec.row (m ((c : Thread nD τ).loc main_arg5))) (m ((c : Thread nD τ).loc main_arg6))
        (GcnSpec.cell (m ((c : Thread nD τ).loc main_arg7))) := by
  refine (W2_arr m ρ c 8).trans ((Stage0.final8 (V1 m ρ) c).trans ?_)
  show GcnSpec.headBias (W1 m ρ c (Proc.devRef .tc main_v0)) (W1 m ρ c (Proc.devRef .tc main_arg6))
    (W1 m ρ c (Proc.devRef .tc main_v1)) = _
  rw [W1_b2row, W1_arg6, W1_blcell]

/-- The first call writes neither the adjacency nor b1. -/
theorem W2_arg0 (c : Dev nD) : W2 m ρ c (Proc.devRef .tc main_arg0) = m ((c : Thread nD τ).loc main_arg0) :=
  (W2_of_ne m ρ c main_arg0 (by decide)).trans (W1_arg0 m ρ c)
theorem W2_arg3 (c : Dev nD) : W2 m ρ c (Proc.devRef .tc main_arg3) = m ((c : Thread nD τ).loc main_arg3) :=
  (W2_of_ne m ρ c main_arg3 (by decide)).trans (W1_arg3 m ρ c)

/-! ## After the reshape of b1 -/

theorem W3_arg0 (c : Dev nD) : W3 m ρ c (Proc.devRef .tc main_arg0) = m ((c : Thread nD τ).loc main_arg0) := by
  refine Eq.trans ?_ (W2_arg0 m ρ c)
  dsimp only [W3, hostOps1]; after_results
theorem W3_support (c : Dev nD) : W3 m ρ c (Proc.devRef .tc main_v2_0)
    = GcnSpec.support (m ((c : Thread nD τ).loc main_arg1)) (m ((c : Thread nD τ).loc main_arg2)) := by
  refine Eq.trans ?_ (W2_support m ρ c)
  dsimp only [W3, hostOps1]; after_results
theorem W3_headVec (c : Dev nD) : W3 m ρ c (Proc.devRef .tc main_v2_1)
    = GcnSpec.headVec (m ((c : Thread nD τ).loc main_arg4)) (m ((c : Thread nD τ).loc main_arg6)) := by
  refine Eq.trans ?_ (W2_headVec m ρ c)
  dsimp only [W3, hostOps1]; after_results
theorem W3_headBias (c : Dev nD) : W3 m ρ c (Proc.devRef .tc main_v2_2)
    = GcnSpec.headBias (GcnSpec.row (m ((c : Thread nD τ).loc main_arg5))) (m ((c : Thread nD τ).loc main_arg6))
        (GcnSpec.cell (m ((c : Thread nD τ).loc main_arg7))) := by
  refine Eq.trans ?_ (W2_headBias m ρ c)
  dsimp only [W3, hostOps1]; after_results

/-- The row of b1. -/
theorem W3_b1row (c : Dev nD) :
    W3 m ρ c (Proc.devRef .tc main_v3) = GcnSpec.row (m ((c : Thread nD τ).loc main_arg3)) := by
  dsimp only [W3, hostOps1]; after_results
  rw [W2_arg3]
  funext i
  obtain ⟨a0, j, rfl⟩ : ∃ (a0 : Fin 1) (j : Fin 128), i = ix2 a0 j := ⟨i 0, i 1, eq_ix2 i⟩
  show shapeCast S1x128 (m ((c : Thread nD τ).loc main_arg3)) shapeCasts_S128_S1x128 (ix2 a0 j)
    = m ((c : Thread nD τ).loc main_arg3) (ix1 j)
  exact shapeCast_a_1a_apply _ _ a0 j

/-! ## After the second call -/

/-- The vector v of the launch arrays. -/
theorem W4_v (c : Dev nD) : W4 m ρ c (Proc.devRef .tc main_v4)
    = GcnSpec.layer1 (m ((c : Thread nD τ).loc main_arg0))
        (GcnSpec.support (m ((c : Thread nD τ).loc main_arg1)) (m ((c : Thread nD τ).loc main_arg2)))
        (GcnSpec.row (m ((c : Thread nD τ).loc main_arg3)))
        (GcnSpec.headVec (m ((c : Thread nD τ).loc main_arg4)) (m ((c : Thread nD τ).loc main_arg6))) := by
  refine (W4_arr m ρ c 4).trans ((Stage1.final (V3 m ρ) c).trans ?_)
  show GcnSpec.layer1 (W3 m ρ c (Proc.devRef .tc main_arg0)) (W3 m ρ c (Proc.devRef .tc main_v2_0))
    (W3 m ρ c (Proc.devRef .tc main_v3)) (W3 m ρ c (Proc.devRef .tc main_v2_1)) = _
  rw [W3_arg0, W3_support, W3_b1row, W3_headVec]

/-- The second call reads the adjacency through an input window and does not touch the folded bias. -/
theorem W4_arg0 (c : Dev nD) : W4 m ρ c (Proc.devRef .tc main_arg0) = m ((c : Thread nD τ).loc main_arg0) :=
  ((W4_arr m ρ c 0).trans (((dat1 (V3 m ρ) c).arrAt_in 0 rfl _).trans (A_eq1 (V3 m ρ) c 0))).trans (W3_arg0 m ρ c)
theorem W4_headBias (c : Dev nD) : W4 m ρ c (Proc.devRef .tc main_v2_2)
    = GcnSpec.headBias (GcnSpec.row (m ((c : Thread nD τ).loc main_arg5))) (m ((c : Thread nD τ).loc main_arg6))
        (GcnSpec.cell (m ((c : Thread nD τ).loc main_arg7))) :=
  (W4_of_ne m ρ c main_v2_2 (by decide)).trans (W3_headBias m ρ c)

/-! ## After the third call -/

/-- THE RESULT: the kernel's composed stages of the eight launch arrays. -/
theorem out_eq (c : Dev nD) : W5 m ρ c (Proc.devRef .tc main_v5)
    = GcnSpec.kernelOut (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7)) := by
  refine (W5_arr m ρ c 3).trans ((Stage2.final (V4 m ρ) c).trans ?_)
  show GcnSpec.layer2 (W4 m ρ c (Proc.devRef .tc main_arg0)) (W4 m ρ c (Proc.devRef .tc main_v4))
    (W4 m ρ c (Proc.devRef .tc main_v2_2)) = _
  rw [W4_arg0, W4_v, W4_headBias]
  rfl

end Cert.KernelIdeal.Chain

end
-- ==== Proof.RefSide.lean ====
/-
  The reference's result, index by index.

  The generated read-at-an-index lemmas give each host operation's entry from its operands' entries: a
  `dot_general` as the sum over the contracted coordinate, a broadcast as the operand's entry, `relu` as the maximum with
  the zero constant. Chained from the result back to the arguments, entry (r, u) of the reference is
      ∑_j (∑_k A(r, k) · ∑_l max(∑_k' A(k, k') · ∑_q x(k', q) · W1(q, l) + b1(l), 0) · W2(l, j) + b2(j)) · Wlin(j, u) + blin(0),
  which is `GcnSpec.refOut`.
-/
import proofs.«157668_g22909355557424_cont_8to1_1761_2_alg».proof.Defs
import proofs.«157668_g22909355557424_cont_8to1_1761_2_alg».proof.Proof.Gen.ReferenceIdeal.Run
import proofs.«157668_g22909355557424_cont_8to1_1761_2_alg».proof.Proof.Gen.ReferenceIdeal.Read
import proofs.«157668_g22909355557424_cont_8to1_1761_2_alg».proof.Proof.LibPlainMatmul
import proofs.«157668_g22909355557424_cont_8to1_1761_2_alg».proof.Proof.Spec

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx Idealize.SL.Sem

/-! ## The generated index functions, at an index built from its coordinates, are pairs of coordinates -/

theorem lidx11 (r : Fin 10000) (u : Fin 1) (k : Fin 128) : lidx_main_v11 (ix2 r u) k = ix2 r k :=
  funext fun a => Fin.ext (by match a with | ⟨0, _⟩ => rfl | ⟨1, _⟩ => rfl)
theorem ridx11 (r : Fin 10000) (u : Fin 1) (k : Fin 128) : ridx_main_v11 (ix2 r u) k = ix2 k u :=
  funext fun a => Fin.ext (by match a with | ⟨0, _⟩ => rfl | ⟨1, _⟩ => rfl)
theorem lidx7 (r : Fin 10000) (j : Fin 128) (k : Fin 10000) : lidx_main_v7 (ix2 r j) k = ix2 r k :=
  funext fun a => Fin.ext (by match a with | ⟨0, _⟩ => rfl | ⟨1, _⟩ => rfl)
theorem ridx7 (r : Fin 10000) (j : Fin 128) (k : Fin 10000) : ridx_main_v7 (ix2 r j) k = ix2 k j :=
  funext fun a => Fin.ext (by match a with | ⟨0, _⟩ => rfl | ⟨1, _⟩ => rfl)
theorem lidx6 (r : Fin 10000) (j : Fin 128) (k : Fin 128) : lidx_main_v6 (ix2 r j) k = ix2 r k :=
  funext fun a => Fin.ext (by match a with | ⟨0, _⟩ => rfl | ⟨1, _⟩ => rfl)
theorem ridx6 (r : Fin 10000) (j : Fin 128) (k : Fin 128) : ridx_main_v6 (ix2 r j) k = ix2 k j :=
  funext fun a => Fin.ext (by match a with | ⟨0, _⟩ => rfl | ⟨1, _⟩ => rfl)
theorem lidx1 (r : Fin 10000) (j : Fin 128) (k : Fin 10000) : lidx_main_v1 (ix2 r j) k = ix2 r k :=
  funext fun a => Fin.ext (by match a with | ⟨0, _⟩ => rfl | ⟨1, _⟩ => rfl)
theorem ridx1 (r : Fin 10000) (j : Fin 128) (k : Fin 10000) : ridx_main_v1 (ix2 r j) k = ix2 k j :=
  funext fun a => Fin.ext (by match a with | ⟨0, _⟩ => rfl | ⟨1, _⟩ => rfl)
theorem lidx0 (r : Fin 10000) (j : Fin 128) (k : Fin 128) : lidx_main_v0 (ix2 r j) k = ix2 r k :=
  funext fun a => Fin.ext (by match a with | ⟨0, _⟩ => rfl | ⟨1, _⟩ => rfl)
theorem ridx0 (r : Fin 10000) (j : Fin 128) (k : Fin 128) : ridx_main_v0 (ix2 r j) k = ix2 k j :=
  funext fun a => Fin.ext (by match a with | ⟨0, _⟩ => rfl | ⟨1, _⟩ => rfl)
/-- A bias row broadcast over the rows is read at its column. -/
theorem idx_bias3 (r : Fin 10000) (j : Fin 128) : idx_main_v2 (idx_main_v3 (ix2 r j)) = ix1 j :=
  funext fun a => Fin.ext (by match a with | ⟨0, _⟩ => rfl)
theorem idx_bias9 (r : Fin 10000) (j : Fin 128) : idx_main_v8 (idx_main_v9 (ix2 r j)) = ix1 j :=
  funext fun a => Fin.ext (by match a with | ⟨0, _⟩ => rfl)
/-- The one-entry bias broadcast over the rows is read at its one entry. -/
theorem idx_bias13 (r : Fin 10000) (u : Fin 1) : idx_main_v12 (idx_main_v13 (ix2 r u)) = ix1 (0 : Fin 1) :=
  funext fun a => Fin.ext (by match a with | ⟨0, _⟩ => rfl)

/-! ## The reference is `refOut` -/

theorem ref_eq (A : (⟨S10000x10000, .f32⟩ : BufTy).Contents (Elt Ideal)) (x : (⟨S10000x128, .f32⟩ : BufTy).Contents (Elt Ideal))
    (W1 : (⟨S128x128, .f32⟩ : BufTy).Contents (Elt Ideal)) (b1 : (⟨S128, .f32⟩ : BufTy).Contents (Elt Ideal))
    (W2 : (⟨S128x128, .f32⟩ : BufTy).Contents (Elt Ideal)) (b2 : (⟨S128, .f32⟩ : BufTy).Contents (Elt Ideal))
    (Wl : (⟨S128x1, .f32⟩ : BufTy).Contents (Elt Ideal)) (bl : (⟨S1, .f32⟩ : BufTy).Contents (Elt Ideal)) :
    val_main_v14 (F := Ideal) A x W1 b1 W2 b2 Wl bl = GcnSpec.refOut A x W1 b1 W2 b2 Wl bl := by
  funext i
  obtain ⟨r, u, rfl⟩ : ∃ (r : Fin 10000) (u : Fin 1), i = ix2 r u := ⟨i 0, i 1, eq_ix2 i⟩
  simp only [val_main_v14_apply, val_main_v11_apply, val_main_v13_apply, val_main_v12_apply, val_main_v10_apply,
    val_main_v7_apply, val_main_v9_apply, val_main_v8_apply, val_main_v6_apply, val_main_v5_apply, val_main_v4_apply,
    val_main_v1_apply, val_main_v0_apply, val_main_v3_apply, val_main_v2_apply, val_main_call0_v0_apply,
    val_main_call0_cst_apply]
  simp only [lidx11, ridx11, lidx7, ridx7, lidx6, ridx6, lidx1, ridx1, lidx0, ridx0, idx_bias3, idx_bias9, idx_bias13]
  simp only [Ideal.addf_def, Ideal.maximumf_def, Ideal.ofBits_def, Ideal.ofBits_zero_f32]
  unfold GcnSpec.refOut GcnSpec.hidden
  rfl

end Cert.ReferenceIdeal.RefValue

end
-- ==== Proof.Finite.lean ====
/-
  The precondition read back: every input entry is a real number.

  The printed precondition is the conjunction, over the eight inputs, of `all(|a| < +∞)`: each `all` a reduction by
  `and` of the entrywise comparison into one bit, the bits joined by `and`. If the result is 1 every comparison is 1, so
  every entry a has max(a, −a) < ⊤ on the extended reals, which excludes ⊤ and ⊥: the entry is a real.
-/
import proofs.«157668_g22909355557424_cont_8to1_1761_2_alg».proof.Pre_finite_inputs
import Idealize.ShloMosaic.PureOps.Ideal.Laws
import Idealize.ShloMosaic.Lib.ReduceAll
import Idealize.ShloMosaic.Lib.ValueIdx
import Idealize.ShloMosaic.Lib.Pipeline.Value

noncomputable section

namespace Cert.Pre_finite_inputs.Decode

open Cert.Pre_finite_inputs Idealize.ShloMosaic Idealize.ShloMosaic.ValueIdx

/-- The word 0x7F800000 is +∞. -/
theorem top_word : Ideal.ofBits .f32 0x7F800000#32 = (⊤ : EReal) := by simp [Ideal.ofBits, Ideal.ieee]

/-- An extended real whose absolute value compares below +∞ is a real. -/
theorem real_of_abs_lt (x : Ideal .f32)
    (h : FloatOps.cmpf .olt (FloatOps.absf x) (FloatOps.ofBits (F := Ideal) .f32 0x7F800000#32) = 1#1) :
    ∃ r : ℝ, x = (r : EReal) := by
  rw [Ideal.cmpf_def, Ideal.absf_def, Ideal.ofBits_def, top_word] at h
  have hlt : max x (-x) < (⊤ : EReal) := by
    by_contra hn
    simp [Ideal.cmp, hn] at h
  induction x using EReal.rec with
  | bot => simp at hlt
  | coe r => exact ⟨r, rfl⟩
  | top => simp at hlt

instance : Subsingleton S_.Idx := ⟨fun a b => funext fun d => d.elim0⟩

variable [Facts]
open Facts

/-- One input's `all(|a| < +∞)` bit being 1 makes every entry of that input a real. -/
theorem reals_of_all {s : Shape} {axes : List (Fin s.rank)} (a : FVec Ideal s .f32) (hb : S_.BroadcastsInDim s (![] : Fin 0 → Fin s.rank))
    (hr : s.ReducesTo axes S_)
    (h : Host.reduce IntOp.andi (cmpf .olt (Host.absf a) (broadcastInDim s ![] hb (constant (F := Ideal) S_ .f32 0x7F800000#32)))
      (constantI S_ 1 1#1) hr h_S_ ix0 = 1#1) (i : s.Idx) : ∃ r : ℝ, a i = (r : EReal) :=
  real_of_abs_lt (a i) (Host.reduce_andi_all _ _ hr h_S_ ix0 h i)

theorem reals_of_pre (a0 : FVec Ideal S10000x10000 .f32) (a1 : FVec Ideal S10000x128 .f32) (a2 : FVec Ideal S128x128 .f32)
    (a3 : FVec Ideal S128 .f32) (a4 : FVec Ideal S128x128 .f32) (a5 : FVec Ideal S128 .f32) (a6 : FVec Ideal S128x1 .f32)
    (a7 : FVec Ideal S1 .f32) (h : fn (F := Ideal) a0 a1 a2 a3 a4 a5 a6 a7 = fun _ => 1#1) :
    (∀ i, ∃ r : ℝ, a0 i = (r : EReal)) ∧ (∀ i, ∃ r : ℝ, a1 i = (r : EReal)) ∧ (∀ i, ∃ r : ℝ, a2 i = (r : EReal))
    ∧ (∀ i, ∃ r : ℝ, a3 i = (r : EReal)) ∧ (∀ i, ∃ r : ℝ, a4 i = (r : EReal)) ∧ (∀ i, ∃ r : ℝ, a5 i = (r : EReal))
    ∧ (∀ i, ∃ r : ℝ, a6 i = (r : EReal)) ∧ (∀ i, ∃ r : ℝ, a7 i = (r : EReal)) := by
  have h0 := congrFun h ix0
  dsimp only [fn, fn_part1, fn_part2] at h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨reals_of_all a0 _ _ e0, reals_of_all a1 _ _ e1, reals_of_all a2 _ _ e2, reals_of_all a3 _ _ e3,
    reals_of_all a4 _ _ e4, reals_of_all a5 _ _ e5, reals_of_all a6 _ _ e6, reals_of_all a7 _ _ e7⟩

end Cert.Pre_finite_inputs.Decode

end
-- ==== Proof.lean ====
/-
  A two-layer graph convolution over a dense 10000×10000 adjacency A with a linear head 128 → 1,
      out = (A · relu(A · (x·W1) + b1) · W2 + b2) · Wlin + blin,
  computed by the kernel with the head moved in front of the second convolution,
      out = A · v + c,   v = relu(A · (x·W1) + b1) · (W2·Wlin),   c = b2·Wlin + blin,
  in three calls: the small dense products once, then two passes over the rows of A in 25 blocks of 400 rows.

  The three frames: the kernel's two programs by their generated frames, the reference by its generated run with the
  result dropped. The idealization rewrote nothing, so there is nothing to preserve. The value claim: the kernel's
  result buffer ends at the fold of the launch memory through @main's steps, which read stage by stage is
  `GcnSpec.kernelOut` of the eight argument arrays (Chain, over Stage0, Stage1, Stage2); the reference's run ends at its
  operations' composed term, which read index by index is `GcnSpec.refOut` of the same arrays (RefSide). The
  precondition makes every input entry a real number (Finite), and for real entries the two functions agree: the
  head commutes with the convolution by distributivity and the exchange of finite sums (Spec).
-/
import proofs.«157668_g22909355557424_cont_8to1_1761_2_alg».proof.Defs
import proofs.«157668_g22909355557424_cont_8to1_1761_2_alg».proof.Proof.Gen.Kernel
import proofs.«157668_g22909355557424_cont_8to1_1761_2_alg».proof.Proof.Gen.Kernel.Frame
import proofs.«157668_g22909355557424_cont_8to1_1761_2_alg».proof.Proof.Gen.KernelIdeal
import proofs.«157668_g22909355557424_cont_8to1_1761_2_alg».proof.Proof.Gen.KernelIdeal.Frame
import proofs.«157668_g22909355557424_cont_8to1_1761_2_alg».proof.Proof.Gen.ReferenceIdeal
import proofs.«157668_g22909355557424_cont_8to1_1761_2_alg».proof.Proof.Gen.ReferenceIdeal.Run
import proofs.«157668_g22909355557424_cont_8to1_1761_2_alg».proof.Proof.Gen.ReferenceIdeal.Read
import proofs.«157668_g22909355557424_cont_8to1_1761_2_alg».proof.Proof.Gen.Pre_finite_inputs
import proofs.«157668_g22909355557424_cont_8to1_1761_2_alg».proof.Proof.Spec
import proofs.«157668_g22909355557424_cont_8to1_1761_2_alg».proof.Proof.RunOut
import proofs.«157668_g22909355557424_cont_8to1_1761_2_alg».proof.Proof.Chain
import proofs.«157668_g22909355557424_cont_8to1_1761_2_alg».proof.Proof.RefSide
import proofs.«157668_g22909355557424_cont_8to1_1761_2_alg».proof.Proof.Finite
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run, its result forgotten. -/
theorem frame_ri : Cert.frame_ReferenceIdeal := fun m ρ _ =>
  (θ_run Cert.ReferenceIdeal.defs _ _).mono (fun _ h c => (h c).2) (Cert.ReferenceIdeal.Value.run (F := Ideal) m ρ)

/-- No operation was rewritten by the idealization. -/
theorem preserves : Cert.preserves_Kernel_KernelIdeal := trivial

/-- Both runs end with the result at one function of the agreeing arguments: the kernel's at `kernelOut`, the
    reference's at `refOut`, equal where every input entry is a real, which the precondition says. -/
theorem algebraic : Cert.algebraic_KernelIdeal_ReferenceIdeal := by
  intro m ρ m' ρ' hpre hagree
  refine ⟨fun c => GcnSpec.kernelOut
      (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2))
      (m ((c : Thread Cert.KernelIdeal.nD Cert.KernelIdeal.τ).loc Cert.KernelIdeal.main_arg3))
      (m ((c : Thread Cert.KernelIdeal.nD Cert.KernelIdeal.τ).loc Cert.KernelIdeal.main_arg4))
      (m ((c : Thread Cert.KernelIdeal.nD Cert.KernelIdeal.τ).loc Cert.KernelIdeal.main_arg5))
      (m ((c : Thread Cert.KernelIdeal.nD Cert.KernelIdeal.τ).loc Cert.KernelIdeal.main_arg6))
      (m ((c : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Chain.out_eq m ρ c), (h c).2⟩)
      (Cert.KernelIdeal.Out.run_out m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7⟩ := hagree c
    obtain ⟨f0, f1, f2, f3, f4, f5, f6, f7⟩ := Cert.Pre_finite_inputs.Decode.reals_of_pre _ _ _ _ _ _ _ _ (hpre c)
    rw [Cert.ReferenceIdeal.Read.val_main_v14_eq, Cert.ReferenceIdeal.RefValue.ref_eq, e0, e1, e2, e3, e4, e5, e6, e7]
    exact (GcnSpec.kernelOut_eq_refOut _ _ _ _ _ _ _ _ f0 f1 f2 f3 f4 f5 f6 f7).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
